-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S32x512x2 : Shape := ⟨3, ![32, 512, 2]⟩
abbrev S_ : Shape := ⟨0, ![]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S32x512x2 : S_.BroadcastsInDim S32x512x2 (![] : Fin 0 → Fin S32x512x2.rank)
  reducesTo_S32x512x2_S_d0_1_2 : S32x512x2.ReducesTo [0, 1, 2] S_

variable [Facts]

def fn {F : FTy → Type} [FloatOps F] (main_arg0 : FVec F S32x512x256 .f32) (main_arg1 : IVec S32x512x2 32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_c_0 : IVec S_ 32 := constantI S_ 32 0#32
  let main_v4 : IVec S32x512x2 32 := broadcastInDim S32x512x2 ![] bcast_S_S32x512x2 main_c_0
  let main_v5 : IVec S32x512x2 1 := cmpi .sge main_arg1 main_v4
  let main_c_1 : IVec S_ 32 := constantI S_ 32 128#32
  let main_v6 : IVec S32x512x2 32 := broadcastInDim S32x512x2 ![] bcast_S_S32x512x2 main_c_1
  let main_v7 : IVec S32x512x2 1 := cmpi .slt main_arg1 main_v6
  let main_v8 : IVec S32x512x2 1 := andi main_v5 main_v7
  let main_c_2 : IVec S_ 1 := constantI S_ 1 1#1
  let main_v9 : IVec S_ 1 := (fun x v => Host.reduce IntOp.andi x v reducesTo_S32x512x2_S_d0_1_2 h_S_) main_v8 main_c_2
  let main_v10 : IVec S_ 1 := andi main_v3 main_v9
  main_v10
-- ==== Kernel.lean ====
abbrev S32x512x256 : Shape := ⟨3, ![32, 512, 256]⟩
abbrev S32x512x2 : Shape := ⟨3, ![32, 512, 2]⟩
abbrev S32x512x1 : Shape := ⟨3, ![32, 512, 1]⟩
abbrev S32x512 : Shape := ⟨2, ![32, 512]⟩
abbrev S_ : Shape := ⟨0, ![]⟩
abbrev S32x256x16384 : Shape := ⟨3, ![32, 256, 16384]⟩
abbrev S1x512x256 : Shape := ⟨3, ![1, 512, 256]⟩
abbrev S1x512x1 : Shape := ⟨3, ![1, 512, 1]⟩
abbrev S1x256x8192 : Shape := ⟨3, ![1, 256, 8192]⟩
abbrev S1x8192 : Shape := ⟨2, ![1, 8192]⟩
abbrev S1x128x256 : Shape := ⟨3, ![1, 128, 256]⟩
abbrev S128x256 : Shape := ⟨2, ![128, 256]⟩
abbrev S1x128x1 : Shape := ⟨3, ![1, 128, 1]⟩
abbrev S128x1 : Shape := ⟨2, ![128, 1]⟩
abbrev S128x8192 : Shape := ⟨2, ![128, 8192]⟩
abbrev S256x8192 : Shape := ⟨2, ![256, 8192]⟩
abbrev S32x256x128x128 : Shape := ⟨4, ![32, 256, 128, 128]⟩

abbrev nBuf : Space → Nat
  | .hbm => 14
  | .vmem => 6
  | .smem => 0
  | _ => 0

abbrev bufTy : (tb : Table) → Fin (tcTables nBuf tb) → BufTy
  | .hbm, ⟨0, _⟩ => ⟨S32x512x256, .f32⟩
  | .hbm, ⟨1, _⟩ => ⟨S32x512x2, .i32⟩
  | .hbm, ⟨2, _⟩ => ⟨S32x512x1, .i32⟩
  | .hbm, ⟨3, _⟩ => ⟨S32x512, .i32⟩
  | .hbm, ⟨4, _⟩ => ⟨S_, .i32⟩
  | .hbm, ⟨5, _⟩ => ⟨S32x512, .i32⟩
  | .hbm, ⟨6, _⟩ => ⟨S32x512, .i32⟩
  | .hbm, ⟨7, _⟩ => ⟨S32x512x1, .i32⟩
  | .hbm, ⟨8, _⟩ => ⟨S32x512, .i32⟩
  | .hbm, ⟨9, _⟩ => ⟨S32x512, .i32⟩
  | .hbm, ⟨10, _⟩ => ⟨S32x512x1, .i32⟩
  | .hbm, ⟨11, _⟩ => ⟨S32x512x256, .bf16⟩
  | .hbm, ⟨12, _⟩ => ⟨S32x256x16384, .f32⟩
  | .hbm, ⟨13, _⟩ => ⟨S32x256x128x128, .f32⟩
  | .local _ .vmem, ⟨0, _⟩ => ⟨S1x512x256, .bf16⟩
  | .local _ .vmem, ⟨1, _⟩ => ⟨S1x512x256, .bf16⟩
  | .local _ .vmem, ⟨2, _⟩ => ⟨S1x512x1, .i32⟩
  | .local _ .vmem, ⟨3, _⟩ => ⟨S1x512x1, .i32⟩
  | .local _ .vmem, ⟨4, _⟩ => ⟨S1x256x8192, .f32⟩
  | .local _ .vmem, ⟨5, _⟩ => ⟨S1x256x8192, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S32x512x2_S32x512x1_0_0_0 : S32x512x2.Slices ![0, 0, 0] S32x512x1
  shapeCasts_S32x512x1_S32x512 : S32x512x1.ShapeCasts S32x512
  bcast_S_S32x512 : S_.BroadcastsInDim S32x512 (![] : Fin 0 → Fin S32x512.rank)
  slices_S32x512x2_S32x512x1_0_0_1 : S32x512x2.Slices ![0, 0, 1] S32x512x1
  bcast_S32x512_S32x512x1_0_1 : S32x512.BroadcastsInDim S32x512x1 (![0, 1] : Fin 2 → Fin S32x512x1.rank)
  bitsLt_bf16_f32 : FTy.bits .bf16 < FTy.bits .f32
  iota_S1x8192_d1_w32 : S1x8192.Iotas .tc 32 [1]
  inb_S1x512x256_S1x128x256_0_0_0 : ∀ a, (![0, 0, 0] : Fin 3 → Nat) a + S1x128x256.size a ≤ S1x512x256.size a
  h_S1x128x256 : 0 < S1x128x256.numel
  shapeCasts_S1x128x256_S128x256 : S1x128x256.ShapeCasts S128x256
  inb_S1x512x1_S1x128x1_0_0_0 : ∀ a, (![0, 0, 0] : Fin 3 → Nat) a + S1x128x1.size a ≤ S1x512x1.size a
  h_S1x128x1 : 0 < S1x128x1.numel
  shapeCasts_S1x128x1_S128x1 : S1x128x1.ShapeCasts S128x1
  broadcasts_S128x1_S128x8192 : S128x1.Broadcasts S128x8192
  broadcasts_S1x8192_S128x8192 : S1x8192.Broadcasts S128x8192
  natLt_1_32 : 1 < 32
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  shapeCasts_S256x8192_S1x256x8192 : S256x8192.ShapeCasts S1x256x8192
  inb_S1x512x256_S1x128x256_0_128_0 : ∀ a, (![0, 128, 0] : Fin 3 → Nat) a + S1x128x256.size a ≤ S1x512x256.size a
  inb_S1x512x1_S1x128x1_0_128_0 : ∀ a, (![0, 128, 0] : Fin 3 → Nat) a + S1x128x1.size a ≤ S1x512x1.size a
  inb_S1x512x256_S1x128x256_0_256_0 : ∀ a, (![0, 256, 0] : Fin 3 → Nat) a + S1x128x256.size a ≤ S1x512x256.size a
  inb_S1x512x1_S1x128x1_0_256_0 : ∀ a, (![0, 256, 0] : Fin 3 → Nat) a + S1x128x1.size a ≤ S1x512x1.size a
  inb_S1x512x256_S1x128x256_0_384_0 : ∀ a, (![0, 384, 0] : Fin 3 → Nat) a + S1x128x256.size a ≤ S1x512x256.size a
  inb_S1x512x1_S1x128x1_0_384_0 : ∀ a, (![0, 384, 0] : Fin 3 → Nat) a + S1x128x1.size a ≤ S1x512x1.size a
  shapeCasts_S32x256x16384_S32x256x128x128 : S32x256x16384.ShapeCasts S32x256x128x128
  dot_S128x256_S128x8192_S256x8192_0_0_1_1_n_n_wf : DotDims.WF S128x256 S128x8192 S256x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x512x256.size a
  hwx0_0 : ∀ i : grid0.Coords, EltTy.bits .bf16 = 32 ∨ (Rect.block (s := S32x512x256) S1x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x512x1.size a
  hwx0_1 : ∀ i : grid0.Coords, EltTy.bits .i32 = 32 ∨ (Rect.block (s := S32x512x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x8192.size a ≤ S32x256x16384.size a
  hwx0_2 : ∀ i : grid0.Coords, EltTy.bits .f32 = 32 ∨ (Rect.block (s := S32x256x16384) S1x256x8192.size (cc0_transform_2 i) (hinb0_2 i)).WholeWords (EltTy.packing .f32)

variable [Facts₀]

def dot_S128x256_S128x8192_S256x8192_0_0_1_1_n_n : DotDims S128x256 S128x8192 S256x8192 where
  lhsContracting := [0]
  rhsContracting := [0]
  lhsNonContracting := [1]
  rhsNonContracting := [1]
  lhsBatch := []
  rhsBatch := []
  wf := dot_S128x256_S128x8192_S256x8192_0_0_1_1_n_n_wf

abbrev win0_0 : Pipeline.Window sig grid0 :=
  Pipeline.Window.ofSpec (Memref.whole main_v8) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S32x512x2 : Shape := ⟨3, ![32, 512, 2]⟩
abbrev S32x512x1 : Shape := ⟨3, ![32, 512, 1]⟩
abbrev S32x512 : Shape := ⟨2, ![32, 512]⟩
abbrev S_ : Shape := ⟨0, ![]⟩
abbrev S32x16384x256 : Shape := ⟨3, ![32, 16384, 256]⟩
abbrev S32 : Shape := ⟨1, ![32]⟩
abbrev S32x1 : Shape := ⟨2, ![32, 1]⟩
abbrev S32x128x128x256 : Shape := ⟨4, ![32, 128, 128, 256]⟩
abbrev S32x256x128x128 : Shape := ⟨4, ![32, 256, 128, 128]⟩

abbrev nBuf : Space → Nat
  | .hbm => 35
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S32x512x2, .i32⟩
  | .hbm, ⟨2, _⟩ => ⟨S32x512x1, .i32⟩
  | .hbm, ⟨3, _⟩ => ⟨S32x512, .i32⟩
  | .hbm, ⟨4, _⟩ => ⟨S_, .i32⟩
  | .hbm, ⟨5, _⟩ => ⟨S32x512, .i32⟩
  | .hbm, ⟨6, _⟩ => ⟨S32x512, .i32⟩
  | .hbm, ⟨7, _⟩ => ⟨S32x512x1, .i32⟩
  | .hbm, ⟨8, _⟩ => ⟨S32x512, .i32⟩
  | .hbm, ⟨9, _⟩ => ⟨S32x512, .i32⟩
  | .hbm, ⟨10, _⟩ => ⟨S_, .f32⟩
  | .hbm, ⟨11, _⟩ => ⟨S32x16384x256, .f32⟩
  | .hbm, ⟨12, _⟩ => ⟨S32, .i32⟩
  | .hbm, ⟨13, _⟩ => ⟨S32x1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S_, .i32⟩
  | .hbm, ⟨18, _⟩ => ⟨S32x1, .i32⟩
  | .hbm, ⟨19, _⟩ => ⟨S32x1, .i32⟩
  | .hbm, ⟨20, _⟩ => ⟨S32x1, .i32⟩
  | .hbm, ⟨21, _⟩ => ⟨S_, .i32⟩
  | .hbm, ⟨22, _⟩ => ⟨S32x512, .i32⟩
  | .hbm, ⟨23, _⟩ => ⟨S32x512, .i1⟩
  | .hbm, ⟨24, _⟩ => ⟨S_, .i32⟩
  | .hbm, ⟨25, _⟩ => ⟨S32x512, .i32⟩
  | .hbm, ⟨26, _⟩ => ⟨S32x512, .i32⟩
  | .hbm, ⟨27, _⟩ => ⟨S32x512, .i32⟩
  | .hbm, ⟨28, _⟩ => ⟨S32x512, .i32⟩
  | .hbm, ⟨29, _⟩ => ⟨S32x512x1, .i32⟩
  | .hbm, ⟨30, _⟩ => ⟨S32x512x1, .i32⟩
  | .hbm, ⟨31, _⟩ => ⟨S32x512x2, .i32⟩
  | .hbm, ⟨32, _⟩ => ⟨S32x16384x256, .f32⟩
  | .hbm, ⟨33, _⟩ => ⟨S32x128x128x256, .f32⟩
  | .hbm, ⟨34, _⟩ => ⟨S32x256x128x128, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  slices_S32x512x2_S32x512x1_0_0_0 : S32x512x2.Slices ![0, 0, 0] S32x512x1
  shapeCasts_S32x512x1_S32x512 : S32x512x1.ShapeCasts S32x512
  bcast_S_S32x512 : S_.BroadcastsInDim S32x512 (![] : Fin 0 → Fin S32x512.rank)
  slices_S32x512x2_S32x512x1_0_0_1 : S32x512x2.Slices ![0, 0, 1] S32x512x1
  bcast_S_S32x16384x256 : S_.BroadcastsInDim S32x16384x256 (![] : Fin 0 → Fin S32x16384x256.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  bcast_S32x512_S32x512x1_0_1 : S32x512.BroadcastsInDim S32x512x1 (![0, 1] : Fin 2 → Fin S32x512x1.rank)
  concatenates_S32x512x1_S32x512x1_S32x512x2_d2 : Shape.Concatenates [S32x512x1, S32x512x1] S32x512x2 2
  shapeCasts_S32x16384x256_S32x128x128x256 : S32x16384x256.ShapeCasts S32x128x128x256
  transposes_S32x128x128x256_S32x256x128x128_0_3_1_2 : S32x128x128x256.Transposes [0, 3, 1, 2] S32x256x128x128
  scatter_S32x16384x256_S32x512x2_S32x512x256_2_01_01_2_wf : ScatterDims.WF S32x16384x256 S32x512x2 S32x512x256 [2] [0, 1] [0, 1] 2

variable [Facts₀]

def scatter_S32x16384x256_S32x512x2_S32x512x256_2_01_01_2 : ScatterDims S32x16384x256 S32x512x2 S32x512x256 where
  updateWindowDims := [2]
  insertedWindowDims := [0, 1]
  scatterDimsToOperandDims := [0, 1]
  indexVectorDim := 2
  wf := scatter_S32x16384x256_S32x512x2_S32x512x256_2_01_01_2_wf

class Facts : Prop extends Facts₀ where

variable [Facts]
-- ==== Proof.PreRange.lean ====
/-
  THE PRECONDITION READ: where the printed precondition is all ones, every coordinate of `location` is, read signed,
  in [0, 128) — the second conjunct, an and-reduction over the whole [32, 512, 2] array of (location ≥ 0) ∧ (location < 128).
  (The first conjunct, finiteness of x, is not used by the proof.)
-/
import proofs.«416818_j52767968199015_3_alg».proof.Pre_finite_inputs
import Idealize.ShloMosaic.Lib.ReduceAll
import Idealize.ShloMosaic.Lib.StableHlo.Predicate

noncomputable section

namespace Cert.Proof.PreRange

open Idealize.ShloMosaic

variable {F : FTy → Type} [FloatOps F] [Cert.Pre_finite_inputs.Facts]

/-- Under the precondition every coordinate is a word whose signed reading is in [0, 128). -/
theorem range_of_pre (x : FVec F (⟨3, ![32, 512, 256]⟩ : Shape) .f32) (loc : IVec (⟨3, ![32, 512, 2]⟩ : Shape) 32)
    (h : Cert.Pre_finite_inputs.fn (F := F) x loc = fun _ => 1#1) :
    ∀ i : (⟨3, ![32, 512, 2]⟩ : Shape).Idx, 0 ≤ (loc i).toInt ∧ (loc i).toInt < 128 := by
  intro i
  -- the scalar result at its one index
  have h0 := congrFun h (fun a => a.elim0)
  dsimp only [Cert.Pre_finite_inputs.fn] at h0
  -- the outer conjunction: keep the second conjunct, the and-reduction over the coordinates
  have h9 := (IntOp.andi_eq_one.1 h0).2
  -- a reduction by `and` into one index that is 1 had a 1 at every coordinate
  haveI : Subsingleton Cert.Pre_finite_inputs.S_.Idx := ⟨fun a b => funext fun d => d.elim0⟩
  have h8 := Host.reduce_andi_all _ _ _ _ _ h9 i
  -- the pointwise conjunction of the two compares
  obtain ⟨h5, h7⟩ := IntOp.andi_eq_one.1 h8
  -- each compare is against a broadcast scalar, which reads the scalar at every index
  have hge : (0#32 : BitVec 32).toInt ≤ (loc i).toInt := IntOp.cmpi_sge.1 h5
  have hlt : (loc i).toInt < (128#32 : BitVec 32).toInt := IntOp.cmpi_slt.1 h7
  have e0 : (0#32 : BitVec 32).toInt = 0 := by decide
  have e128 : (128#32 : BitVec 32).toInt = 128 := by decide
  rw [e0] at hge
  rw [e128] at hlt
  exact ⟨hge, hlt⟩

end Cert.Proof.PreRange

end
-- ==== Proof.Body.lean ====
/-
  THE KERNEL'S BODY AS A VALUE. At one grid point the body holds a [1, 512, 256] block of entity rows (one batch) and
  the [1, 512, 1] block of that batch's flat cell indices, and fills a [1, 256, 8192] block of the map (one batch, all
  channels, one half of the cells: cells p·8192 … p·8192 + 8191 for the point's second coordinate p). It cuts the 512
  entities into four chunks of 128; for each chunk it builds the 0/1 matrix "entity k's flat index is cell q of this
  half", multiplies the chunk's rows (transposed) by it into a zero accumulator, and stores the first product, then
  adds each later product to what it reads back from the block. So the block ends at
  ((S₀ + S₁) + S₂) + S₃, S_c[n, q] = ∑ₖ x[128c + k, n] · [flat[128c + k] = the q-th cell word of this half].
-/
import proofs.«416818_j52767968199015_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl

/-- A load through the whole-shape rectangle at zero offsets, after a list of stores whose LAST went through the same
    rectangle, reads that last store's payload. -/
theorem readCov_cons_unit_zero {Val : EltTy → Type} {S : Shape} {e : EltTy} [∀ e, Nonempty (Val e)] {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The body's result from its two input blocks: the last store's payload, each earlier store read back whole. -/
def bodyVal (i : grid0.Coords) (x0 : Vec F S1x512x256 .bf16) (x1 : Vec F S1x512x1 .i32) : Vec F S1x256x8192 .f32 :=
  k0_pay1
    (k0_pay7 (k0_pay2 i) (View.ld x0 (Rect.unit ![0, 384, 0] S1x128x256.size inb_S1x512x256_S1x128x256_0_384_0))
      (View.ld x1 (Rect.unit ![0, 384, 0] S1x128x1.size inb_S1x512x1_S1x128x1_0_384_0))
      (k0_pay6 (k0_pay2 i) (View.ld x0 (Rect.unit ![0, 256, 0] S1x128x256.size inb_S1x512x256_S1x128x256_0_256_0))
        (View.ld x1 (Rect.unit ![0, 256, 0] S1x128x1.size inb_S1x512x1_S1x128x1_0_256_0))
        (k0_pay5
          (k0_pay4 i (View.ld x0 (Rect.unit ![0, 128, 0] S1x128x256.size inb_S1x512x256_S1x128x256_0_128_0))
            (View.ld x1 (Rect.unit ![0, 128, 0] S1x128x1.size inb_S1x512x1_S1x128x1_0_128_0))
            (k0_pay3 i (View.ld x0 (Rect.unit ![0, 0, 0] S1x128x256.size inb_S1x512x256_S1x128x256_0_0_0))
              (View.ld x1 (Rect.unit ![0, 0, 0] S1x128x1.size inb_S1x512x1_S1x128x1_0_0_0)))))))

/-- What the run leaves in the output's staging buffer is that value: the four stores all cover the block, so the last
    one's payload stands, and each load of the block reads the store before it. -/
theorem out_eq (c : Dev nD) (i : grid0.Coords) (a2 : Memref sig .tc .vmem S1x512x256 .bf16) (h2 : a2.IsWhole)
    (a3 : Memref sig .tc .vmem S1x512x1 .i32) (h3 : a3.IsWhole) (a4 : Memref sig .tc .vmem S1x256x8192 .f32) (h4 : a4.IsWhole)
    (x0 : Vec F S1x512x256 .bf16) (x1 : Vec F S1x512x1 .i32) :
    out0_A_2 c i a2 h2 a3 h3 a4 h4 x0 x1 = bodyVal i x0 x1 := by
  unfold out0_A_2
  rw [View.read_writes_eq_canon _ _ _ (cover0_A_2 c i a2 h2 a3 h3 a4 h4 x0 x1)]
  unfold kernelRun0_A
  dsimp only
  sl_unfold_words
  rw [View.canon_cons_unit_zero (S := S1x256x8192) hz3]
  simp only [readCov_cons_unit_zero (S := S1x256x8192) _ hz3, View.readAt_eq_ld, h2.read_unread, h3.read_unread]
  rfl

/-! ## One chunk's product at an index, at the ideal instance -/

theorem lhs_0 (i : S256x8192.Idx) (q : dot_S128x256_S128x8192_S256x8192_0_0_1_1_n_n.contr.Idx) :
    (dot_S128x256_S128x8192_S256x8192_0_0_1_1_n_n.lhsIdx i q 0).val = (q ⟨0, by decide⟩).val :=
  dot_S128x256_S128x8192_S256x8192_0_0_1_1_n_n.lhsIdx_val_of_single rfl i q
theorem lhs_1 (i : S256x8192.Idx) (q : dot_S128x256_S128x8192_S256x8192_0_0_1_1_n_n.contr.Idx) :
    (dot_S128x256_S128x8192_S256x8192_0_0_1_1_n_n.lhsIdx i q 1).val = (i 0).val := by
  unfold DotDims.lhsIdx
  rw [dif_neg (show ¬(1 : Fin S128x256.rank) ∈ dot_S128x256_S128x8192_S256x8192_0_0_1_1_n_n.lhsBatch by decide), dif_pos (show (1 : Fin S128x256.rank) ∈ dot_S128x256_S128x8192_S256x8192_0_0_1_1_n_n.lhsNonContracting by decide)]
  rfl
theorem rhs_0 (i : S256x8192.Idx) (q : dot_S128x256_S128x8192_S256x8192_0_0_1_1_n_n.contr.Idx) :
    (dot_S128x256_S128x8192_S256x8192_0_0_1_1_n_n.rhsIdx i q 0).val = (q ⟨0, by decide⟩).val :=
  dot_S128x256_S128x8192_S256x8192_0_0_1_1_n_n.rhsIdx_val_of_single rfl i q
theorem rhs_1 (i : S256x8192.Idx) (q : dot_S128x256_S128x8192_S256x8192_0_0_1_1_n_n.contr.Idx) :
    (dot_S128x256_S128x8192_S256x8192_0_0_1_1_n_n.rhsIdx i q 1).val = (i 1).val := by
  unfold DotDims.rhsIdx
  rw [dif_neg (show ¬(1 : Fin S128x8192.rank) ∈ dot_S128x256_S128x8192_S256x8192_0_0_1_1_n_n.rhsBatch by decide), dif_pos (show (1 : Fin S128x8192.rank) ∈ dot_S128x256_S128x8192_S256x8192_0_0_1_1_n_n.rhsNonContracting by decide)]
  rfl

/-- The 0/1 word of an equality test, widened and read signed, is 1 where the words agree and 0 elsewhere. -/
theorem onehot_word (x y : BitVec 32) :
    ((((IntOp.cmpi .eq x y).setWidth 32).toInt : ℝ) : EReal) = if x = y then 1 else 0 := by
  by_cases h : x = y
  · subst h
    have e : IntOp.cmpi .eq x x = 1#1 := by simp [IntOp.cmpi]
    have e1 : ((1#1 : BitVec 1).setWidth 32).toInt = 1 := by decide
    rw [if_pos rfl, e, e1]; norm_num
  · have hb : (x == y) = false := beq_eq_false_iff_ne.mpr h
    have e : IntOp.cmpi .eq x y = 0#1 := by
      show BitVec.ofBool (x == y) = 0#1
      rw [hb]; rfl
    have e0 : ((0#1 : BitVec 1).setWidth 32).toInt = 0 := by decide
    rw [if_neg h, e, e0]; norm_num

/-- One chunk: the product of the chunk's 128 rows (transposed) with the 0/1 matrix of "row k's flat index is the
    q-th cell word", into a zero accumulator, at channel n and cell q is the sum of the rows' channel-n entries whose
    flat index is that word. -/
theorem chunk_apply (iv : IVec S1x8192 32) (xb : Vec Ideal S1x128x256 .bf16) (fb : Vec Ideal S1x128x1 .i32) (n : Fin 256)
    (q : Fin 8192) :
    matmul (F := Ideal) (φ₁ := .bf16) (φ₂ := .bf16) dot_S128x256_S128x8192_S256x8192_0_0_1_1_n_n none
      (shapeCast S128x256 xb shapeCasts_S1x128x256_S128x256 : FVec Ideal S128x256 .bf16)
      (truncf .bf16 (sitofp .f32 (extui 32 (cmpi .eq
        (broadcastTo S128x8192 (shapeCast S128x1 fb shapeCasts_S1x128x1_S128x1 : IVec S128x1 32) broadcasts_S128x1_S128x8192)
        (broadcastTo S128x8192 iv broadcasts_S1x8192_S128x8192)) natLt_1_32) : FVec Ideal S128x8192 .f32) bitsLt_bf16_f32)
      (constant S256x8192 .f32 0x00000000#32) (ix2 n q)
    = ∑ k : Fin 128, xb (ix3 0 k n) * (if fb (ix3 0 k 0) = iv (ix2 0 q) then 1 else 0) := by
  show FloatOps.matmul (F := Ideal) _ _ _ _ _ _ = _
  rw [Ideal.matmul_constant_zero_apply, ← Equiv.sum_comp (ValueIdx.contrEquiv1 dot_S128x256_S128x8192_S256x8192_0_0_1_1_n_n 128 rfl rfl).symm]
  refine Finset.sum_congr rfl fun k _ => ?_
  have hk := ValueIdx.contrEquiv1_symm_val dot_S128x256_S128x8192_S256x8192_0_0_1_1_n_n 128 rfl rfl k
  have el : dot_S128x256_S128x8192_S256x8192_0_0_1_1_n_n.lhsIdx (ix2 n q) ((ValueIdx.contrEquiv1 dot_S128x256_S128x8192_S256x8192_0_0_1_1_n_n 128 rfl rfl).symm k) = ix2 k n :=
    funext fun a => Fin.ext (by
      match a with
      | ⟨0, _⟩ => exact (lhs_0 _ _).trans hk
      | ⟨1, _⟩ => exact lhs_1 _ _)
  have er : dot_S128x256_S128x8192_S256x8192_0_0_1_1_n_n.rhsIdx (ix2 n q) ((ValueIdx.contrEquiv1 dot_S128x256_S128x8192_S256x8192_0_0_1_1_n_n 128 rfl rfl).symm k) = ix2 k q :=
    funext fun a => Fin.ext (by
      match a with
      | ⟨0, _⟩ => exact (rhs_0 _ _).trans hk
      | ⟨1, _⟩ => exact rhs_1 _ _)
  rw [el, er]
  have e1 : (shapeCast S128x256 xb shapeCasts_S1x128x256_S128x256 : FVec Ideal S128x256 .bf16) (ix2 k n) = xb (ix3 0 k n) :=
    shapeCast_apply xb shapeCasts_S1x128x256_S128x256 (ix2 k n) (ix3 0 k n) (by
      rw [Shape.rowMajor_val_three, Shape.rowMajor_val_two]
      show ((0 : Nat) * 128 + k.val) * 256 + n.val = k.val * 256 + n.val
      omega)
  have e2 : broadcastTo S128x8192 (shapeCast S128x1 fb shapeCasts_S1x128x1_S128x1 : IVec S128x1 32) broadcasts_S128x1_S128x8192 (ix2 k q)
      = fb (ix3 0 k 0) := by
    rw [broadcastTo_apply _ broadcasts_S128x1_S128x8192 (ix2 k q) (ix2 k 0) (fun a => by
      match a with
      | ⟨0, _⟩ => show k.val = if (128 : Nat) = 1 then 0 else k.val; rw [if_neg (by decide)]
      | ⟨1, _⟩ => show (0 : Nat) = if (1 : Nat) = 1 then 0 else q.val; rw [if_pos rfl])]
    exact shapeCast_apply fb shapeCasts_S1x128x1_S128x1 (ix2 k 0) (ix3 0 k 0) (by
      rw [Shape.rowMajor_val_three, Shape.rowMajor_val_two]
      show ((0 : Nat) * 128 + k.val) * 1 + 0 = k.val * 1 + 0
      omega)
  have e3 : broadcastTo S128x8192 iv broadcasts_S1x8192_S128x8192 (ix2 k q) = iv (ix2 0 q) :=
    broadcastTo_apply _ broadcasts_S1x8192_S128x8192 (ix2 k q) (ix2 0 q) (fun a => by
      match a with
      | ⟨0, _⟩ => show (0 : Nat) = if (1 : Nat) = 1 then 0 else k.val; rw [if_pos rfl]
      | ⟨1, _⟩ => show q.val = if (8192 : Nat) = 1 then 0 else q.val; rw [if_neg (by decide)])
  rw [e1]
  refine congrArg (xb (ix3 0 k n) * ·) ?_
  show ((((IntOp.cmpi .eq
      (broadcastTo S128x8192 (shapeCast S128x1 fb shapeCasts_S1x128x1_S128x1 : IVec S128x1 32) broadcasts_S128x1_S128x8192 (ix2 k q))
      (broadcastTo S128x8192 iv broadcasts_S1x8192_S128x8192 (ix2 k q))).setWidth 32).toInt : ℝ) : EReal) = _
  rw [e2, e3]
  exact onehot_word _ _

/-! ## The body's value at an index, at the ideal instance -/

/-- One chunk's sum: the channel-n entries of the chunk's rows whose flat index is the q-th cell word. -/
def chunkSum (iv : IVec S1x8192 32) (xb : Vec Ideal S1x128x256 .bf16) (fb : Vec Ideal S1x128x1 .i32) (n : Fin 256)
    (q : Fin 8192) : EReal :=
  ∑ k : Fin 128, xb (ix3 0 k n) * (if fb (ix3 0 k 0) = iv (ix2 0 q) then 1 else 0)

/-- Adding the unit leading axis reads (0, n, q) at (n, q); -/
theorem castUp_apply (v : FVec Ideal S256x8192 .f32) (n : Fin 256) (q : Fin 8192) :
    (shapeCast S1x256x8192 v shapeCasts_S256x8192_S1x256x8192 : FVec Ideal S1x256x8192 .f32) (ix3 0 n q) = v (ix2 n q) :=
  shapeCast_apply v shapeCasts_S256x8192_S1x256x8192 (ix3 0 n q) (ix2 n q) (by
    rw [Shape.rowMajor_val_three, Shape.rowMajor_val_two]
    show n.val * 8192 + q.val = ((0 : Nat) * 256 + n.val) * 8192 + q.val
    omega)

/-- dropping it reads (n, q) at (0, n, q). -/
theorem castDown_apply (v : Vec Ideal S1x256x8192 .f32) (n : Fin 256) (q : Fin 8192) :
    (shapeCast S256x8192 v shapeCasts_S1x256x8192_S256x8192 : FVec Ideal S256x8192 .f32) (ix2 n q) = v (ix3 0 n q) :=
  shapeCast_apply v shapeCasts_S1x256x8192_S256x8192 (ix2 n q) (ix3 0 n q) (by
    rw [Shape.rowMajor_val_three, Shape.rowMajor_val_two]
    show ((0 : Nat) * 256 + n.val) * 8192 + q.val = n.val * 8192 + q.val
    omega)

theorem pay1_apply (v65 : FVec Ideal S256x8192 .f32) (n : Fin 256) (q : Fin 8192) :
    k0_pay1 (F := Ideal) v65 (ix3 0 n q) = v65 (ix2 n q) := by
  unfold k0_pay1
  exact castUp_apply v65 n q

theorem pay5_apply (v31 : FVec Ideal S256x8192 .f32) (n : Fin 256) (q : Fin 8192) :
    k0_pay5 (F := Ideal) v31 (ix3 0 n q) = v31 (ix2 n q) := by
  unfold k0_pay5
  exact castUp_apply v31 n q

theorem pay3_apply (i : grid0.Coords) (v4 : Vec Ideal S1x128x256 .bf16) (v6 : Vec Ideal S1x128x1 .i32) (n : Fin 256)
    (q : Fin 8192) : k0_pay3 (F := Ideal) i v4 v6 (ix3 0 n q) = chunkSum (k0_pay2 i) v4 v6 n q := by
  unfold k0_pay3
  exact (castUp_apply _ n q).trans (chunk_apply (k0_pay2 i) v4 v6 n q)

theorem pay4_apply (i : grid0.Coords) (v18 : Vec Ideal S1x128x256 .bf16) (v20 : Vec Ideal S1x128x1 .i32)
    (v29 : Vec Ideal S1x256x8192 .f32) (n : Fin 256) (q : Fin 8192) :
    k0_pay4 (F := Ideal) i v18 v20 v29 (ix2 n q) = v29 (ix3 0 n q) + chunkSum (k0_pay2 i) v18 v20 n q := by
  unfold k0_pay4
  show (shapeCast S256x8192 v29 shapeCasts_S1x256x8192_S256x8192 : FVec Ideal S256x8192 .f32) (ix2 n q) + _ = _
  rw [castDown_apply v29 n q]
  exact congrArg (v29 (ix3 0 n q) + ·) (chunk_apply (k0_pay2 i) v18 v20 n q)

theorem pay6_apply (v3 : IVec S1x8192 32) (v35 : Vec Ideal S1x128x256 .bf16) (v37 : Vec Ideal S1x128x1 .i32)
    (v46 : Vec Ideal S1x256x8192 .f32) (n : Fin 256) (q : Fin 8192) :
    k0_pay6 (F := Ideal) v3 v35 v37 v46 (ix3 0 n q) = v46 (ix3 0 n q) + chunkSum v3 v35 v37 n q := by
  unfold k0_pay6
  refine (castUp_apply _ n q).trans ?_
  show (shapeCast S256x8192 v46 shapeCasts_S1x256x8192_S256x8192 : FVec Ideal S256x8192 .f32) (ix2 n q) + _ = _
  rw [castDown_apply v46 n q]
  exact congrArg (v46 (ix3 0 n q) + ·) (chunk_apply v3 v35 v37 n q)

theorem pay7_apply (v3 : IVec S1x8192 32) (v52 : Vec Ideal S1x128x256 .bf16) (v54 : Vec Ideal S1x128x1 .i32)
    (v63 : Vec Ideal S1x256x8192 .f32) (n : Fin 256) (q : Fin 8192) :
    k0_pay7 (F := Ideal) v3 v52 v54 v63 (ix2 n q) = v63 (ix3 0 n q) + chunkSum v3 v52 v54 n q := by
  unfold k0_pay7
  show (shapeCast S256x8192 v63 shapeCasts_S1x256x8192_S256x8192 : FVec Ideal S256x8192 .f32) (ix2 n q) + _ = _
  rw [castDown_apply v63 n q]
  exact congrArg (v63 (ix3 0 n q) + ·) (chunk_apply v3 v52 v54 n q)

/-- The q-th cell word of the point's half: q plus the point's second coordinate times 8192, in 32-bit words. -/
theorem cellWord_apply (i : grid0.Coords) (q : Fin 8192) :
    k0_pay2 i (ix2 0 q) = BitVec.ofNat 32 q.val + BitVec.ofNat 32 (i 1).val * 8192#32 := by
  unfold k0_pay2
  show IntOp.addi (iota .tc S1x8192 32 [1] iota_S1x8192_d1_w32 (ix2 0 q)) _ = _
  rw [iota_single_apply]
  rfl

/-- THE BODY'S VALUE at channel n and cell q of the block: the four chunks' sums, added in order. -/
theorem bodyVal_apply (i : grid0.Coords) (x0 : Vec Ideal S1x512x256 .bf16) (x1 : Vec Ideal S1x512x1 .i32) (n : Fin 256)
    (q : Fin 8192) :
    bodyVal (F := Ideal) i x0 x1 (ix3 0 n q)
      = ((chunkSum (k0_pay2 i) (View.ld x0 (Rect.unit ![0, 0, 0] S1x128x256.size inb_S1x512x256_S1x128x256_0_0_0))
            (View.ld x1 (Rect.unit ![0, 0, 0] S1x128x1.size inb_S1x512x1_S1x128x1_0_0_0)) n q
          + chunkSum (k0_pay2 i) (View.ld x0 (Rect.unit ![0, 128, 0] S1x128x256.size inb_S1x512x256_S1x128x256_0_128_0))
            (View.ld x1 (Rect.unit ![0, 128, 0] S1x128x1.size inb_S1x512x1_S1x128x1_0_128_0)) n q)
          + chunkSum (k0_pay2 i) (View.ld x0 (Rect.unit ![0, 256, 0] S1x128x256.size inb_S1x512x256_S1x128x256_0_256_0))
            (View.ld x1 (Rect.unit ![0, 256, 0] S1x128x1.size inb_S1x512x1_S1x128x1_0_256_0)) n q)
        + chunkSum (k0_pay2 i) (View.ld x0 (Rect.unit ![0, 384, 0] S1x128x256.size inb_S1x512x256_S1x128x256_0_384_0))
            (View.ld x1 (Rect.unit ![0, 384, 0] S1x128x1.size inb_S1x512x1_S1x128x1_0_384_0)) n q := by
  unfold bodyVal
  rw [pay1_apply, pay7_apply, pay6_apply, pay5_apply, pay4_apply, pay3_apply]

end Cert.KernelIdeal.Body

end
-- ==== Proof.Spec.lean ====
/-
  THE SPECIFICATION: entities scattered into a spatial map. Entity (b, m) of batch b carries a row x[b, m, :] of 256
  channels and a coordinate pair location[b, m, :] = (y, x); its cell on the 128 × 128 map, flattened row-major, is
  y · 128 + x. The map's value at batch b, channel n and cell (y', x') is the sum of x[b, m, n] over the entities m of
  that batch whose cell is y' · 128 + x'. Stated over the coordinates read as naturals: where every coordinate is in
  [0, 128) (the precondition), the 32-bit flattening y · 128 + x does not wrap and is this natural number.
-/
import Idealize.ShloMosaic.PureOps.Ideal
import Idealize.ShloMosaic.Lib.ValueIdx
import Mathlib.Algebra.BigOperators.Group.Finset.Basic

noncomputable section

open scoped BigOperators

namespace Cert.Proof.Spec

open Idealize.ShloMosaic Idealize.ShloMosaic.ValueIdx

/-- The coordinate pairs: [32, 512, 2] 32-bit words. -/
abbrev SLoc : Shape := ⟨3, ![32, 512, 2]⟩
/-- The entity rows: [32, 512, 256]. -/
abbrev SX : Shape := ⟨3, ![32, 512, 256]⟩
/-- The map, channels before cells: [32, 256, 128, 128]. -/
abbrev SOut : Shape := ⟨4, ![32, 256, 128, 128]⟩

/-- The flattened cell y · 128 + x of entity (b, m), the two coordinates read as naturals. -/
def cell (loc : IVec SLoc 32) (b : Fin 32) (m : Fin 512) : Nat :=
  (loc (ix3 b m (0 : Fin 2))).toNat * 128 + (loc (ix3 b m (1 : Fin 2))).toNat

/-- The same flattening as the programs compute it, in 32-bit words. -/
def cellWord (loc : IVec SLoc 32) (b : Fin 32) (m : Fin 512) : BitVec 32 :=
  loc (ix3 b m (0 : Fin 2)) * 128#32 + loc (ix3 b m (1 : Fin 2))

/-- The scattered map: at (b, n, y', x') the sum of x[b, m, n] over the entities m of batch b in cell y' · 128 + x'. -/
def G (x : SX.Idx → EReal) (loc : IVec SLoc 32) : SOut.Idx → EReal :=
  fun i => ∑ m : Fin 512, if cell loc (i 0) m = (i 2).val * 128 + (i 3).val then x (ix3 (i 0) m (i 1)) else 0

/-- Under the range precondition a coordinate's word is a natural below 128, equal to its signed reading. -/
theorem toNat_lt (loc : IVec SLoc 32) (hr : ∀ i : SLoc.Idx, 0 ≤ (loc i).toInt ∧ (loc i).toInt < 128) (i : SLoc.Idx) :
    (loc i).toNat < 128 := by
  have h := hr i
  have e := BitVec.toInt_eq_toNat_cond (loc i)
  have hlt := (loc i).isLt
  split_ifs at e <;> omega

/-- Under the range precondition the cell is below 128 · 128. -/
theorem cell_lt (loc : IVec SLoc 32) (hr : ∀ i : SLoc.Idx, 0 ≤ (loc i).toInt ∧ (loc i).toInt < 128) (b : Fin 32)
    (m : Fin 512) : cell loc b m < 16384 := by
  have h0 := toNat_lt loc hr (ix3 b m (0 : Fin 2))
  have h1 := toNat_lt loc hr (ix3 b m (1 : Fin 2))
  unfold cell
  omega

/-- Under the range precondition the 32-bit flattening does not wrap: its word reads the natural cell. -/
theorem cellWord_toNat (loc : IVec SLoc 32) (hr : ∀ i : SLoc.Idx, 0 ≤ (loc i).toInt ∧ (loc i).toInt < 128) (b : Fin 32)
    (m : Fin 512) : (cellWord loc b m).toNat = cell loc b m := by
  have h0 := toNat_lt loc hr (ix3 b m (0 : Fin 2))
  have h1 := toNat_lt loc hr (ix3 b m (1 : Fin 2))
  unfold cellWord cell
  rw [BitVec.toNat_add, BitVec.toNat_mul]
  show ((loc (ix3 b m (0 : Fin 2))).toNat * 128 % 2 ^ 32 + (loc (ix3 b m (1 : Fin 2))).toNat) % 2 ^ 32 = _
  omega

end Cert.Proof.Spec

end
-- ==== Proof.KernelHost.lean ====
/-
  WHAT THE KERNEL'S REGION FINDS IN ITS TWO INPUT ARRAYS. Before the region the host flattens each coordinate pair to
  y · 128 + x in 32-bit words (a [32, 512, 1] array) and narrows x to bf16 (at the ideal instance a change of format is
  the identity).
-/
import proofs.«416818_j52767968199015_3_alg».proof.Proof.Gen.KernelIdeal.Frame
import proofs.«416818_j52767968199015_3_alg».proof.Proof.Spec
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The flat-index array the region stages holds, at (b, k, 0), the 32-bit flattening of entity (b, k)'s pair. -/
theorem V_flat_apply (c : Dev nD) (b : Fin 32) (k : Fin 512) :
    (V m c main_v7 : S32x512x1.Idx → BitVec 32) (ix3 b k (0 : Fin 1))
      = Cert.Proof.Spec.cellWord (m ((c : Thread nD τ).loc main_arg1)) b k := by
  -- the words of the coordinate array
  let loc : S32x512x2.Idx → BitVec 32 := m ((c : Thread nD τ).loc main_arg1)
  -- the host's term for the flat-index array: (reshape(slice₀ loc) · 128 + reshape(slice₁ loc)), a unit axis appended
  have e : (V m c main_v7 : S32x512x1.Idx → BitVec 32)
      = broadcastInDim S32x512x1 ![0, 1] bcast_S32x512_S32x512x1_0_1
          (addi
            (muli
              (shapeCast S32x512 (extractStridedSlice S32x512x1 ![0, 0, 0] loc slices_S32x512x2_S32x512x1_0_0_0)
                shapeCasts_S32x512x1_S32x512)
              (broadcastInDim S32x512 ![] bcast_S_S32x512 (constantI S_ 32 128#32)))
            (shapeCast S32x512 (extractStridedSlice S32x512x1 ![0, 0, 1] loc slices_S32x512x2_S32x512x1_0_0_1)
              shapeCasts_S32x512x1_S32x512)) := by
    show StableHlo.after hostOps0 (fun b => m (c, b)) (Proc.devRef .tc main_v7) = _
    after_results
    rfl
  rw [e]
  -- the appended unit axis: (b, k, 0) reads (b, k)
  rw [broadcastInDim_apply ![0, 1] bcast_S32x512_S32x512x1_0_1 _ (ix3 b k (0 : Fin 1)) (ix2 b k) (fun a => match a with
    | ⟨0, _⟩ => by show b.val = if (32 : Nat) = 1 then 0 else b.val; rw [if_neg (by decide)]
    | ⟨1, _⟩ => by show k.val = if (512 : Nat) = 1 then 0 else k.val; rw [if_neg (by decide)])]
  -- sum and product are pointwise
  change IntOp.addi (IntOp.muli (shapeCast S32x512 _ shapeCasts_S32x512x1_S32x512 (ix2 b k))
      (broadcastInDim S32x512 ![] bcast_S_S32x512 (constantI S_ 32 128#32) (ix2 b k)))
    (shapeCast S32x512 _ shapeCasts_S32x512x1_S32x512 (ix2 b k)) = _
  -- dropping the unit axis keeps the row-major position: (b, k) reads (b, k, 0)
  have hcast : (S32x512x1.rowMajor (ix3 b k (0 : Fin 1))).val = (S32x512.rowMajor (ix2 b k)).val := by
    rewrite [Shape.rowMajor_val_three, Shape.rowMajor_val_two]
    show (b.val * 512 + k.val) * 1 + 0 = b.val * 512 + k.val
    omega
  rw [shapeCast_apply (extractStridedSlice S32x512x1 ![0, 0, 0] loc slices_S32x512x2_S32x512x1_0_0_0)
      shapeCasts_S32x512x1_S32x512 (ix2 b k) (ix3 b k (0 : Fin 1)) hcast,
    shapeCast_apply (extractStridedSlice S32x512x1 ![0, 0, 1] loc slices_S32x512x2_S32x512x1_0_0_1)
      shapeCasts_S32x512x1_S32x512 (ix2 b k) (ix3 b k (0 : Fin 1)) hcast]
  -- the two slices of the last axis: offset 0 reads the first coordinate, offset 1 the second
  rw [extractStridedSlice_apply ![0, 0, 0] loc slices_S32x512x2_S32x512x1_0_0_0 (ix3 b k (0 : Fin 1)) (ix3 b k (0 : Fin 2))
      (fun a => match a with
        | ⟨0, _⟩ => by show b.val = 0 + b.val; omega
        | ⟨1, _⟩ => by show k.val = 0 + k.val; omega
        | ⟨2, _⟩ => by show (0 : Nat) = 0 + 0; rfl),
    extractStridedSlice_apply ![0, 0, 1] loc slices_S32x512x2_S32x512x1_0_0_1 (ix3 b k (0 : Fin 1)) (ix3 b k (1 : Fin 2))
      (fun a => match a with
        | ⟨0, _⟩ => by show b.val = 0 + b.val; omega
        | ⟨1, _⟩ => by show k.val = 0 + k.val; omega
        | ⟨2, _⟩ => by show (1 : Nat) = 1 + 0; rfl)]
  -- the broadcast scalar 128 reads 128 everywhere; what is left is y · 128 + x in 32-bit words
  rw [broadcastInDim_apply ![] bcast_S_S32x512 (constantI S_ 32 128#32) (ix2 b k) (fun a => a.elim0) (fun a => a.elim0)]
  rfl

/-- The narrowed entity rows the region stages are, at the ideal instance, the argument's. -/
theorem V_x_apply (c : Dev nD) (j : S32x512x256.Idx) :
    (V m c main_v8 : S32x512x256.Idx → EReal) j = (m ((c : Thread nD τ).loc main_arg0) : S32x512x256.Idx → EReal) j := by
  -- the host's term for the narrowed rows: the format change of the argument
  have e : (V m c main_v8 : S32x512x256.Idx → EReal)
      = truncf (F := Ideal) .bf16 (m ((c : Thread nD τ).loc main_arg0) : S32x512x256.Idx → EReal) bitsLt_bf16_f32 := by
    show StableHlo.after hostOps0 (fun b => m (c, b)) (Proc.devRef .tc main_v8) = _
    after_results
  rw [e]
  -- at the ideal instance a change of format is the identity
  exact truncf_apply _ bitsLt_bf16_f32 j

end Cert.KernelIdeal.Host

end
-- ==== Proof.Chunks.lean ====
/-
  TWO FACTS THAT JOIN THE KERNEL'S FORM TO THE SPECIFICATION'S. (1) A sum over 512 entities is the sum of its four
  chunks of 128, in any grouping: addition of extended reals is commutative and associative. (2) Under the range
  precondition, "entity m's 32-bit flat index is the word q + p · 8192" (p < 2, q < 8192) says "its natural cell is
  p · 8192 + q": neither side wraps; and a product with the 0/1 value of a test is the term or zero.
-/
import proofs.«416818_j52767968199015_3_alg».proof.Proof.Spec
import Mathlib.Algebra.BigOperators.Fin
import Mathlib.Logic.Equiv.Fin.Basic

noncomputable section

open scoped BigOperators

namespace Cert.Proof.Spec

open Idealize.ShloMosaic Idealize.ShloMosaic.ValueIdx

/-- A sum over 512 is the sum of its four consecutive chunks of 128. -/
theorem sum_chunks {M : Type*} [AddCommMonoid M] (f : Fin 512 → M) :
    ((∑ k : Fin 128, f ⟨k.val, by omega⟩ + ∑ k : Fin 128, f ⟨128 + k.val, by omega⟩)
        + ∑ k : Fin 128, f ⟨256 + k.val, by omega⟩) + ∑ k : Fin 128, f ⟨384 + k.val, by omega⟩
      = ∑ m : Fin 512, f m := by
  have e : ∑ p : Fin 4 × Fin 128, f ⟨p.2.val + 128 * p.1.val, by omega⟩ = ∑ m : Fin 512, f m :=
    Fintype.sum_equiv (finProdFinEquiv (m := 4) (n := 128)) (fun p => f ⟨p.2.val + 128 * p.1.val, by omega⟩) f
      (fun p => congrArg f (Fin.ext rfl))
  rw [← e, Fintype.sum_prod_type, Fin.sum_univ_four]
  refine congrArg₂ (· + ·) (congrArg₂ (· + ·) (congrArg₂ (· + ·) ?_ ?_) ?_) ?_ <;>
    exact Finset.sum_congr rfl fun k _ => congrArg f (Fin.ext (by simp <;> omega))

/-- The word q + p · 8192 (p < 2, q < 8192) reads the natural p · 8192 + q. -/
theorem halfWord_toNat (p : Nat) (hp : p < 2) (q : Fin 8192) :
    (BitVec.ofNat 32 q.val + BitVec.ofNat 32 p * 8192#32).toNat = p * 8192 + q.val := by
  have hq := q.isLt
  rw [BitVec.toNat_add, BitVec.toNat_mul, BitVec.toNat_ofNat, BitVec.toNat_ofNat]
  show (q.val % 2 ^ 32 + p % 2 ^ 32 * 8192 % 2 ^ 32) % 2 ^ 32 = _
  omega

/-- Under the range precondition, entity (b, m)'s flat word is the q-th cell word of half p exactly when its natural
    cell is p · 8192 + q. -/
theorem cellWord_eq_iff (loc : IVec SLoc 32) (hr : ∀ i : SLoc.Idx, 0 ≤ (loc i).toInt ∧ (loc i).toInt < 128) (b : Fin 32)
    (m : Fin 512) (p : Nat) (hp : p < 2) (q : Fin 8192) :
    cellWord loc b m = BitVec.ofNat 32 q.val + BitVec.ofNat 32 p * 8192#32 ↔ cell loc b m = p * 8192 + q.val := by
  constructor
  · intro h
    rw [← cellWord_toNat loc hr b m, h, halfWord_toNat p hp q]
  · intro h
    apply BitVec.eq_of_toNat_eq
    rw [cellWord_toNat loc hr b m, h, halfWord_toNat p hp q]

/-- A term times the 0/1 value of a test is the term where the test holds and zero elsewhere. -/
theorem mul_onehot (a : EReal) (P : Prop) [Decidable P] : a * (if P then (1 : EReal) else 0) = if P then a else 0 := by
  split_ifs <;> simp

end Cert.Proof.Spec

end
-- ==== Proof.KernelValue.lean ====
/-
  THE KERNEL'S RESULT ARRAY IS THE SPECIFICATION. Grid point (b, p) stages batch b's entity rows and flat indices whole
  and writes block (b, 0, p) of the [32, 256, 16384] array: all 256 channels, cells p·8192 … p·8192 + 8191. By the
  body's value the block's entry (n, q) is the four chunk sums of x[b, m, n] · [flat[b, m] = word(p·8192 + q)] added in
  order, which is the one sum over the 512 entities; under the range precondition the word test is the test
  "cell(b, m) = p·8192 + q" on naturals. The 64 blocks tile the array, so the array ends at
  K3[b, n, c] = ∑ₘ [cell(b, m) = c] · x[b, m, n]; the host's closing reshape reads (b, n, y', x') at cell y'·128 + x'.
-/
import proofs.«416818_j52767968199015_3_alg».proof.Proof.Body
import proofs.«416818_j52767968199015_3_alg».proof.Proof.KernelHost
import proofs.«416818_j52767968199015_3_alg».proof.Proof.Chunks
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx
open Cert.Proof.Spec (cell cellWord)

variable (m : (ℓ : Loc nD τ sig) → Buf (Elt Ideal) ℓ) (ρ : Dev nD → PrngReg)

/-- The entity rows and the coordinate pairs as launched. -/
abbrev xarr (c : Dev nD) : S32x512x256.Idx → EReal := m ((c : Thread nD τ).loc main_arg0)
abbrev larr (c : Dev nD) : IVec S32x512x2 32 := m ((c : Thread nD τ).loc main_arg1)

/-- One entity's contribution to cell P of batch b at channel n. -/
def term (x : S32x512x256.Idx → EReal) (loc : IVec S32x512x2 32) (b : Fin 32) (n : Fin 256) (P : Nat) (m' : Fin 512) : EReal :=
  if cell loc b m' = P then x (ix3 b m' n) else 0

/-- The map with its cells on one axis: [32, 256, 16384]. -/
def K3 (x : S32x512x256.Idx → EReal) (loc : IVec S32x512x2 32) : S32x256x16384.Idx → EReal :=
  fun j => ∑ m' : Fin 512, term x loc (j 0) (j 1) (j 2).val m'

/-- The printed index maps, decided over the 64 grid points: both inputs follow the output's batch block and stay at
    block 0 on their other axes; the output's channel block is 0; the point's second coordinate is the output's cell
    block. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ ((grid0.coords t) 1).val = win0_2.index t (2 : Fin 3)
    ∧ win0_2.index t (0 : Fin 3) < 32 ∧ win0_2.index t (2 : Fin 3) < 2 :=
  (by decide +kernel : ∀ t : Fin grid0.N, _)

/-- Every (batch, half) block is some point's. -/
theorem idx_onto : ∀ (b : Fin 32) (p : Fin 2), ∃ t : Fin cfg0.N, win0_2.index t = ![b.val, 0, p.val] :=
  (by decide +kernel : ∀ (b : Fin 32) (p : Fin 2), ∃ t : Fin grid0.N, win0_2.index t = ![b.val, 0, p.val])

/-- The two input blocks at a point, at their literal types. -/
abbrev xblk (c : Dev nD) (t : Fin cfg0.N) : Vec Ideal S1x512x256 .bf16 := iblk m c 0 t
abbrev fblk (c : Dev nD) (t : Fin cfg0.N) : Vec Ideal S1x512x1 .i32 := iblk m c 1 t

/-- The entity block at a point of batch b is batch b's rows. -/
theorem xblk_apply (c : Dev nD) (t : Fin cfg0.N) (b : Fin 32) (hb : win0_2.index t (0 : Fin 3) = b.val) (r : Fin 512)
    (n : Fin 256) : xblk m c t (ix3 0 r n) = xarr m c (ix3 b r n) := by
  obtain ⟨e0, e1, e2, -⟩ := idx_facts t
  show ((cfg0.win 0).blk t).view.read (Elt Ideal) (V m c (Pipeline.arrRef spec0 0)) (ix3 0 r n) = _
  rw [View.read_apply]
  refine (Host.V_x_apply m c _).trans (congrArg (xarr m c) ?_)
  funext a; apply Fin.ext
  match a with
  | ⟨0, _⟩ => show win0_0.index t (0 : Fin 3) * 1 + 1 * 0 = b.val; omega
  | ⟨1, _⟩ => show win0_0.index t (1 : Fin 3) * 512 + 1 * r.val = r.val; omega
  | ⟨2, _⟩ => show win0_0.index t (2 : Fin 3) * 256 + 1 * n.val = n.val; omega

/-- The flat-index block at a point of batch b is batch b's flat words. -/
theorem fblk_apply (c : Dev nD) (t : Fin cfg0.N) (b : Fin 32) (hb : win0_2.index t (0 : Fin 3) = b.val) (r : Fin 512) :
    fblk m c t (ix3 0 r 0) = cellWord (larr m c) b r := by
  obtain ⟨-, -, -, e3, e4, e5, -⟩ := idx_facts t
  show ((cfg0.win 1).blk t).view.read (Elt Ideal) (V m c (Pipeline.arrRef spec0 1)) (ix3 0 r 0) = _
  rw [View.read_apply]
  refine Eq.trans (congrArg (V m c main_v7 : S32x512x1.Idx → BitVec 32) ?_) (Host.V_flat_apply m c b r)
  funext a; apply Fin.ext
  match a with
  | ⟨0, _⟩ => show win0_1.index t (0 : Fin 3) * 1 + 1 * 0 = b.val; omega
  | ⟨1, _⟩ => show win0_1.index t (1 : Fin 3) * 512 + 1 * r.val = r.val; omega
  | ⟨2, _⟩ => show win0_1.index t (2 : Fin 3) * 1 + 1 * 0 = 0; omega

/-- One chunk (rows o … o + 127) at a point of batch b and half p: its sum is the chunk's part of the specification's
    sum for cell p·8192 + q. -/
theorem chunk_eq (c : Dev nD) (hr : ∀ i : S32x512x2.Idx, 0 ≤ (larr m c i).toInt ∧ (larr m c i).toInt < 128)
    (t : Fin cfg0.N) (b : Fin 32) (hb : win0_2.index t (0 : Fin 3) = b.val) (p : Nat) (hp : p < 2)
    (hp' : ((grid0.coords t) 1).val = p) (o : Nat) (ho : o + 128 ≤ 512)
    (inb0 : ∀ a, (![0, o, 0] : Fin 3 → Nat) a + S1x128x256.size a ≤ S1x512x256.size a)
    (inb1 : ∀ a, (![0, o, 0] : Fin 3 → Nat) a + S1x128x1.size a ≤ S1x512x1.size a) (n : Fin 256) (q : Fin 8192) :
    Body.chunkSum (k0_pay2 (grid0.coords t)) (View.ld (xblk m c t) (Rect.unit ![0, o, 0] S1x128x256.size inb0))
        (View.ld (fblk m c t) (Rect.unit ![0, o, 0] S1x128x1.size inb1)) n q
      = ∑ k : Fin 128, term (xarr m c) (larr m c) b n (p * 8192 + q.val) ⟨o + k.val, by have := k.isLt; omega⟩ := by
  unfold Body.chunkSum
  refine Finset.sum_congr rfl fun k _ => ?_
  have hk := k.isLt
  have ex : View.ld (xblk m c t) (Rect.unit ![0, o, 0] S1x128x256.size inb0) (ix3 0 k n)
      = xarr m c (ix3 b ⟨o + k.val, by omega⟩ n) := by
    refine Eq.trans (congrArg (xblk m c t) ?_) (xblk_apply m c t b hb ⟨o + k.val, by omega⟩ n)
    funext a; apply Fin.ext
    match a with
    | ⟨0, _⟩ => show 0 + 1 * 0 = 0; omega
    | ⟨1, _⟩ => show o + 1 * k.val = o + k.val; omega
    | ⟨2, _⟩ => show 0 + 1 * n.val = n.val; omega
  have ef : View.ld (fblk m c t) (Rect.unit ![0, o, 0] S1x128x1.size inb1) (ix3 0 k 0)
      = cellWord (larr m c) b ⟨o + k.val, by omega⟩ := by
    refine Eq.trans (congrArg (fblk m c t) ?_) (fblk_apply m c t b hb ⟨o + k.val, by omega⟩)
    funext a; apply Fin.ext
    match a with
    | ⟨0, _⟩ => show 0 + 1 * 0 = 0; omega
    | ⟨1, _⟩ => show o + 1 * k.val = o + k.val; omega
    | ⟨2, _⟩ => show 0 + 1 * 0 = 0; omega
  rw [ex, ef, Body.cellWord_apply, hp', Cert.Proof.Spec.mul_onehot]
  unfold term
  exact if_congr (Cert.Proof.Spec.cellWord_eq_iff (larr m c) hr b _ p hp q) rfl rfl

/-- WHAT POINT t WRITES BACK is block t of K3 of the arguments. -/
theorem flushed_eq (c : Dev nD) (hr : ∀ i : S32x512x2.Idx, 0 ≤ (larr m c i).toInt ∧ (larr m c i).toInt < 128)
    (t : Fin cfg0.N) :
    (dats m 0 c).flushed 2 t = ((cfg0.win 2).blk t).view.read (Elt Ideal) (K3 (xarr m c) (larr m c)) := by
  show (cfg0.win 2).cut (grid0.coords t) ((dats m 0 c).after 2 t) = _
  rw [after0_2]
  unfold outsAt0
  rw [Body.out_eq]
  obtain ⟨e0, e1, e2, e3, e4, e5, e6, e7, e8, e9⟩ := idx_facts t
  refine funext fun (y : S1x256x8192.Idx) => ?_
  show Body.bodyVal (grid0.coords t) (xblk m c t) (fblk m c t) y
    = K3 (xarr m c) (larr m c) (((cfg0.win 2).blk t).view.emb y)
  have h1 : (y 0).val < 1 := (y 0).isLt
  have hy0 : (y 0 : Fin 1) = (0 : Fin 1) := Fin.ext (by show (y 0).val = 0; omega)
  obtain ⟨n, q, rfl⟩ : ∃ (n : Fin 256) (q : Fin 8192), y = ix3 (0 : Fin 1) n q :=
    ⟨y 1, y 2, (eq_ix3 y).trans (congrArg (fun z : Fin 1 => ix3 z (y 1 : Fin 256) (y 2 : Fin 8192)) hy0)⟩
  have hq := q.isLt
  have hemb : ((cfg0.win 2).blk t).view.emb (ix3 (0 : Fin 1) n q)
      = ix3 (⟨win0_2.index t (0 : Fin 3), e8⟩ : Fin 32) n (⟨win0_2.index t (2 : Fin 3) * 8192 + q.val, by omega⟩ : Fin 16384) := by
    funext a; apply Fin.ext
    match a with
    | ⟨0, _⟩ => show win0_2.index t (0 : Fin 3) * 1 + 1 * 0 = win0_2.index t (0 : Fin 3); omega
    | ⟨1, _⟩ => show win0_2.index t (1 : Fin 3) * 256 + 1 * n.val = n.val; omega
    | ⟨2, _⟩ => show win0_2.index t (2 : Fin 3) * 8192 + 1 * q.val = win0_2.index t (2 : Fin 3) * 8192 + q.val; omega
  rw [hemb, Body.bodyVal_apply]
  show _ = ∑ m' : Fin 512, term (xarr m c) (larr m c) ⟨win0_2.index t (0 : Fin 3), e8⟩ n (win0_2.index t (2 : Fin 3) * 8192 + q.val) m'
  rw [← Cert.Proof.Spec.sum_chunks]
  refine congrArg₂ (· + ·) (congrArg₂ (· + ·) (congrArg₂ (· + ·) ?_ ?_) ?_) ?_
  · exact (chunk_eq m c hr t ⟨_, e8⟩ rfl _ e9 e7 0 (by omega) _ _ n q).trans
      (Finset.sum_congr rfl fun k _ => congrArg _ (Fin.ext (by simp)))
  · exact (chunk_eq m c hr t ⟨_, e8⟩ rfl _ e9 e7 128 (by omega) _ _ n q).trans
      (Finset.sum_congr rfl fun k _ => congrArg _ (Fin.ext (by simp)))
  · exact (chunk_eq m c hr t ⟨_, e8⟩ rfl _ e9 e7 256 (by omega) _ _ n q).trans
      (Finset.sum_congr rfl fun k _ => congrArg _ (Fin.ext (by simp)))
  · exact (chunk_eq m c hr t ⟨_, e8⟩ rfl _ e9 e7 384 (by omega) _ _ n q).trans
      (Finset.sum_congr rfl fun k _ => congrArg _ (Fin.ext (by simp)))

/-- An index of the array is in point t's block iff each coordinate is in the block's range on its axis. -/
theorem mem_blk (t : Fin cfg0.N) (i : S32x256x16384.Idx) :
    i ∈ ((cfg0.win 2).blk t).view.set
      ↔ ∀ a : Fin 3, win0_2.index t a * S1x256x8192.size a ≤ (i a).val
          ∧ (i a).val < win0_2.index t a * S1x256x8192.size a + S1x256x8192.size a := by
  show i ∈ ((View.whole main_v9).slice (win0_2.rect t)).set ↔ _
  rw [View.set_slice_whole, Rect.mem_set_unit]
  exact Iff.rfl

/-- THE ARRAY after the run: K3 of the arguments — the 64 blocks tile it: index (b, n, cell) is in the block of the
    point with batch block b and cell block cell / 8192. -/
theorem final (c : Dev nD) (hr : ∀ i : S32x512x2.Idx, 0 ≤ (larr m c i).toInt ∧ (larr m c i).toInt < 128) :
    (dats m 0 c).arrAt 2 cfg0.N = K3 (xarr m c) (larr m c) :=
  (dats m 0 c).arrAt_eq_of_cover 2 (K3 (xarr m c) (larr m c)) (fun t _ => flushed_eq m c hr t) fun i => by
    have h0 : (i 0).val < 32 := (i 0).isLt
    have h1 : (i 1).val < 256 := (i 1).isLt
    have h2 : (i 2).val < 16384 := (i 2).isLt
    obtain ⟨t, ht⟩ := idx_onto ⟨(i 0).val, h0⟩ ⟨(i 2).val / 8192, by omega⟩
    have q0 : win0_2.index t (0 : Fin 3) = (i 0).val := congrFun ht 0
    have q1 : win0_2.index t (1 : Fin 3) = 0 := congrFun ht 1
    have q2 : win0_2.index t (2 : Fin 3) = (i 2).val / 8192 := congrFun ht 2
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 8192 ≤ (i 2).val ∧ (i 2).val < win0_2.index t (2 : Fin 3) * 8192 + 8192; omega

/-- The host's closing reshape of the array to [32, 256, 128, 128] reads (b, n, y', x') at cell y'·128 + x': the result
    is the specification's map. -/
theorem tail_eq (c : Dev nD) (hr : ∀ i : S32x512x2.Idx, 0 ≤ (larr m c i).toInt ∧ (larr m c i).toInt < 128) :
    Pipeline.afterTail₀ cfgs (dats m) 0 (V0 m) [hostOps1] c main_v10 = Cert.Proof.Spec.G (xarr m c) (larr m c) := by
  unfold Pipeline.afterTail₀
  show StableHlo.after hostOps1 _ (Proc.devRef .tc main_v10) = _
  have e : StableHlo.after hostOps1
        (Pipeline.withArrays (cfgs 0).spec c (V0 m c) fun w => (dats m 0 c).arrAt w (cfgs 0).N) (Proc.devRef .tc main_v10)
      = (shapeCast S32x256x128x128
          (Pipeline.withArrays (cfgs 0).spec c (V0 m c) (fun w => (dats m 0 c).arrAt w (cfgs 0).N)
            (Proc.devRef .tc main_v9) : S32x256x16384.Idx → EReal)
          shapeCasts_S32x256x16384_S32x256x128x128 : S32x256x128x128.Idx → EReal) := by
    after_results
    rfl
  refine e.trans ?_
  have w2 : (Pipeline.withArrays (cfgs 0).spec c (V0 m c) (fun w => (dats m 0 c).arrAt w (cfgs 0).N)
      (Proc.devRef .tc main_v9) : S32x256x16384.Idx → EReal) = K3 (xarr m c) (larr m c) :=
    (Pipeline.withArrays_arr spec0 launch0.win.arr_inj c (V0 m c) _ 2).trans (final m c hr)
  rw [w2]
  refine funext fun (i : S32x256x128x128.Idx) => ?_
  have h0 : (i 0).val < 32 := (i 0).isLt
  have h1 : (i 1).val < 256 := (i 1).isLt
  have h2 : (i 2).val < 128 := (i 2).isLt
  have h3 : (i 3).val < 128 := (i 3).isLt
  rw [shapeCast_apply (K3 (xarr m c) (larr m c)) shapeCasts_S32x256x16384_S32x256x128x128 i
    (ix3 (⟨(i 0).val, h0⟩ : Fin 32) (⟨(i 1).val, h1⟩ : Fin 256) (⟨(i 2).val * 128 + (i 3).val, by omega⟩ : Fin 16384)) (by
      rw [Shape.rowMajor_val_three, Shape.rowMajor_val_four]
      show ((i 0).val * 256 + (i 1).val) * 16384 + ((i 2).val * 128 + (i 3).val)
        = (((i 0).val * 256 + (i 1).val) * 128 + (i 2).val) * 128 + (i 3).val
      omega)]
  rfl

/-- THE RUN, READ: every weakly fair execution ends with the result array at the specification's map of the arguments
    as launched, and the arguments unchanged. -/
theorem run (hr : ∀ (c : Dev nD) (i : S32x512x2.Idx), 0 ≤ (larr m c i).toInt ∧ (larr m c i).toInt < 128) :
    θ_run defs (onTc (τ := τ) (main (F := Ideal))) ⟨m, fun _ => 0, ρ⟩ fun r => ∀ c : Dev nD,
      r.2.mem ((c : Thread nD τ).loc main_v10) = Cert.Proof.Spec.G (xarr m c) (larr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v10 (Pipeline.mem_restRefs_of main_v10 (by decide) (by decide))).trans (tail_eq m c (hr c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibScatterPairs.lean ====
/-
  THE HOST'S ACCUMULATING FLOAT SCATTER READ AT AN INDEX, at the ideal instance, for the pattern an indexed
  accumulation with a PAIR of indices per update row lowers to: operand [B, P, C], scatter indices [B', M, 2] with the
  index vector on axis 2, updates [B', M, C], update window axes [2], inserted window axes [0, 1], scatter axes to
  operand axes [0, 1]. Update element (b', m, ch) lands at (b, p, ch') exactly when idx[b', m, 0], read signed, is b,
  idx[b', m, 1], read signed, is p, and ch = ch'; so the scatter at (b, p, ch) is the operand there plus the sum over
  the rows (b', m) whose index pair is (b, p) of the update at (b', m, ch).

  The update scatter axes are the updates' axes but the window axis 2, that is [0, 1]; the scatter indices' axes but
  the index vector's are [0, 1] as well; so update index (b', m, ch) reads component c of its start index at
  [b', m, c] (siIdx_pairs). Operand axes 0 and 1 are scatter axes and inserted: start the index read signed, window
  coordinate 0. Operand axis 2 is neither: start 0, window coordinate ch (resultIdx_pairs). The sum over the update
  indices is the triple sum over their coordinates (sum_idx3), and in it the sum over the channel has the single term
  ch (scatterAdd_pairs_apply). The extents and the index width are variables: nothing here evaluates a size.
-/
import proofs.«416818_j52767968199015_3_alg».proof.Proof.LibScatterSum

noncomputable section

open scoped BigOperators

namespace Idealize.ShloMosaic.ScatterSum

open Idealize.ShloMosaic Idealize.ShloMosaic.ValueIdx

/-! ## An entry of a list by its position -/

/-- The entry at a position equal to k is the entry the list has at k. -/
theorem getElem_of_getElem? {α : Type*} {l : List α} {a : α} {k : Nat} (h : l[k]? = some a) (k' : Nat) (hk' : k' = k)
    (hlt : k' < l.length) : l[k'] = a := by
  subst hk'
  obtain ⟨_, h'⟩ := List.getElem?_eq_some_iff.1 h
  exact h'

/-! ## The scatter-indices index off the index vector's axis, by position -/

section General
variable {s si u : Shape} (d : ScatterDims s si u)

/-- Off the index vector's axis, the scatter-indices index has on axis b the update index's coordinate on the update
    scatter axis a that stands, among the update scatter axes, where b stands among the scatter indices' axes but the
    index vector's. -/
theorem siIdx_val_of_pos (j : u.Idx) (c : Fin d.scatterDimsToOperandDims.length) (b : Fin si.rank)
    (hb : ¬ b.val = d.indexVectorDim) (k : Nat) (hk : d.siKept.idxOf b = k) (a : Fin u.rank)
    (ha : d.uScatter[k]? = some a) : (d.siIdx j c b).val = (j a).val := by
  unfold ScatterDims.siIdx
  rw [dif_neg hb]
  unfold ScatterDims.siCoord
  exact congrArg (fun e => (j e).val) (getElem_of_getElem? ha _ hk _)

end General

/-! ## A rank-3 index set as the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The PAIRS pattern: operand [B, P, C], scatter indices [B', M, 2], updates [B', M, C] -/

section Pairs
variable {B P C B' M w : Nat}

/-- The update scatter axes are the updates' axes but the window axis 2. -/
theorem uScatter_pairs
    (d : ScatterDims (⟨3, ![B, P, C]⟩ : Shape) (⟨3, ![B', M, 2]⟩ : Shape) (⟨3, ![B', M, C]⟩ : Shape))
    (huw : d.updateWindowDims = [2]) : d.uScatter = [0, 1] := by
  show Shape.kept _ d.updateWindowDims = [0, 1]
  rw [huw]; rfl

/-- The scatter indices' axes but the index vector's axis 2. -/
theorem siKept_pairs
    (d : ScatterDims (⟨3, ![B, P, C]⟩ : Shape) (⟨3, ![B', M, 2]⟩ : Shape) (⟨3, ![B', M, C]⟩ : Shape))
    (hiv : d.indexVectorDim = 2) : d.siKept = [0, 1] := by
  unfold ScatterDims.siKept
  rw [hiv]; rfl

/-- The operand's axes that are not inserted: the channel axis 2 alone. -/
theorem sKept_pairs
    (d : ScatterDims (⟨3, ![B, P, C]⟩ : Shape) (⟨3, ![B', M, 2]⟩ : Shape) (⟨3, ![B', M, C]⟩ : Shape))
    (hiw : d.insertedWindowDims = [0, 1]) : d.sKept = [2] := by
  show Shape.kept _ d.insertedWindowDims = [2]
  rw [hiw]; rfl

/-- Update index (b', m, ch) reads component c of its start index at [b', m, c]. -/
theorem siIdx_pairs
    (d : ScatterDims (⟨3, ![B, P, C]⟩ : Shape) (⟨3, ![B', M, 2]⟩ : Shape) (⟨3, ![B', M, C]⟩ : Shape))
    (huw : d.updateWindowDims = [2]) (hiv : d.indexVectorDim = 2) (b' : Fin B') (m : Fin M) (ch : Fin C)
    (c : Fin d.scatterDimsToOperandDims.length) (k : Fin 2) (hk : c.val = k.val) :
    d.siIdx (ix3 b' m ch) c = ix3 b' m k := by
  have huS := uScatter_pairs d huw
  have hsK := siKept_pairs d hiv
  funext a
  refine Fin.ext ?_
  match a with
  | ⟨0, ha⟩ =>
    exact siIdx_val_of_pos d (ix3 b' m ch) c ⟨0, ha⟩ (by rw [hiv]; show ¬ (0 : Nat) = 2; omega) 0
      (by rw [hsK]; rfl) 0 (by rw [huS]; rfl)
  | ⟨1, ha⟩ =>
    exact siIdx_val_of_pos d (ix3 b' m ch) c ⟨1, ha⟩ (by rw [hiv]; show ¬ (1 : Nat) = 2; omega) 1
      (by rw [hsK]; rfl) 1 (by rw [huS]; rfl)
  | ⟨2, ha⟩ =>
    exact (siIdx_val_of_eq d (ix3 b' m ch) c ⟨2, ha⟩ (by rw [hiv])).trans hk

/-- Update element (b', m, ch) lands at (b, p, ch') exactly when the row's index pair is (b, p) and the channels
    agree. -/
theorem resultIdx_pairs
    (d : ScatterDims (⟨3, ![B, P, C]⟩ : Shape) (⟨3, ![B', M, 2]⟩ : Shape) (⟨3, ![B', M, C]⟩ : Shape))
    (huw : d.updateWindowDims = [2]) (hiw : d.insertedWindowDims = [0, 1]) (hsd : d.scatterDimsToOperandDims = [0, 1])
    (hiv : d.indexVectorDim = 2) (idx : IVec (⟨3, ![B', M, 2]⟩ : Shape) w) (b' : Fin B') (m : Fin M) (ch : Fin C)
    (b : Fin B) (p : Fin P) (ch' : Fin C) :
    d.resultIdx? (ix3 b' m ch) idx = some (ix3 b p ch')
      ↔ ((idx (ix3 b' m (0 : Fin 2))).toInt = (b.val : Int) ∧ (idx (ix3 b' m (1 : Fin 2))).toInt = (p.val : Int)
          ∧ ch = ch') := by
  have h0mem : (0 : Fin 3) ∈ d.scatterDimsToOperandDims := by rw [hsd]; exact List.mem_cons.2 (Or.inl rfl)
  have h1mem : (1 : Fin 3) ∈ d.scatterDimsToOperandDims := by
    rw [hsd]; exact List.mem_cons.2 (Or.inr (List.mem_singleton.2 rfl))
  have h2nmem : (2 : Fin 3) ∉ d.scatterDimsToOperandDims := by
    rw [hsd]; show (2 : Fin 3) ∉ ([0, 1] : List (Fin 3)); decide
  have h0k : (0 : Fin 3) ∉ d.sKept := by
    show _ ∉ Shape.kept _ d.insertedWindowDims
    rw [hiw, mem_kept]; exact fun h => h (List.mem_cons.2 (Or.inl rfl))
  have h1k : (1 : Fin 3) ∉ d.sKept := by
    show _ ∉ Shape.kept _ d.insertedWindowDims
    rw [hiw, mem_kept]; exact fun h => h (List.mem_cons.2 (Or.inr (List.mem_singleton.2 rfl)))
  have h2k : (2 : Fin 3) ∈ d.sKept := by
    show _ ∈ Shape.kept _ d.insertedWindowDims
    rw [hiw, mem_kept]; show (2 : Fin 3) ∉ ([0, 1] : List (Fin 3)); decide
  have hc0 : (⟨d.scatterDimsToOperandDims.idxOf (0 : Fin 3), List.idxOf_lt_length_iff.2 h0mem⟩ :
      Fin d.scatterDimsToOperandDims.length).val = (0 : Fin 2).val := by
    show List.idxOf (0 : Fin 3) d.scatterDimsToOperandDims = 0
    rw [hsd]; rfl
  have hc1 : (⟨d.scatterDimsToOperandDims.idxOf (1 : Fin 3), List.idxOf_lt_length_iff.2 h1mem⟩ :
      Fin d.scatterDimsToOperandDims.length).val = (1 : Fin 2).val := by
    show List.idxOf (1 : Fin 3) d.scatterDimsToOperandDims = 1
    rw [hsd]; rfl
  have hs0 : d.start (ix3 b' m ch) idx 0 = (idx (ix3 b' m (0 : Fin 2))).toInt := by
    rw [start_of_mem d _ _ _ h0mem, siIdx_pairs d huw hiv b' m ch _ 0 hc0]
  have hs1 : d.start (ix3 b' m ch) idx 1 = (idx (ix3 b' m (1 : Fin 2))).toInt := by
    rw [start_of_mem d _ _ _ h1mem, siIdx_pairs d huw hiv b' m ch _ 1 hc1]
  have hs2 : d.start (ix3 b' m ch) idx 2 = 0 := start_of_not_mem d _ _ _ h2nmem
  have hw0 : d.window (ix3 b' m ch) 0 = 0 := window_of_not_mem d _ _ h0k
  have hw1 : d.window (ix3 b' m ch) 1 = 0 := window_of_not_mem d _ _ h1k
  have hw2 : d.window (ix3 b' m ch) 2 = ch.val := window_of_singleton d _ _ h2k 2 huw
  rw [resultIdx?_eq_some_iff]
  constructor
  · intro h
    have a0 : d.start (ix3 b' m ch) idx 0 + (d.window (ix3 b' m ch) 0 : Int) = (b.val : Int) := h 0
    have a1 : d.start (ix3 b' m ch) idx 1 + (d.window (ix3 b' m ch) 1 : Int) = (p.val : Int) := h 1
    have a2 : d.start (ix3 b' m ch) idx 2 + (d.window (ix3 b' m ch) 2 : Int) = (ch'.val : Int) := h 2
    rw [hs0, hw0] at a0
    rw [hs1, hw1] at a1
    rw [hs2, hw2] at a2
    refine ⟨by omega, by omega, Fin.ext (by omega)⟩
  · rintro ⟨h0, h1, rfl⟩ a
    match a with
    | ⟨0, _⟩ =>
      show d.start (ix3 b' m ch) idx 0 + (d.window (ix3 b' m ch) 0 : Int) = (b.val : Int)
      rw [hs0, hw0, h0]; omega
    | ⟨1, _⟩ =>
      show d.start (ix3 b' m ch) idx 1 + (d.window (ix3 b' m ch) 1 : Int) = (p.val : Int)
      rw [hs1, hw1, h1]; omega
    | ⟨2, _⟩ =>
      show d.start (ix3 b' m ch) idx 2 + (d.window (ix3 b' m ch) 2 : Int) = (ch.val : Int)
      rw [hs2, hw2]; omega

/-- THE SCATTER READ AT (b, p, ch): the operand there plus the updates at channel ch of the rows whose index pair is
    (b, p). -/
theorem scatterAdd_pairs_apply
    (d : ScatterDims (⟨3, ![B, P, C]⟩ : Shape) (⟨3, ![B', M, 2]⟩ : Shape) (⟨3, ![B', M, C]⟩ : Shape))
    (huw : d.updateWindowDims = [2]) (hiw : d.insertedWindowDims = [0, 1]) (hsd : d.scatterDimsToOperandDims = [0, 1])
    (hiv : d.indexVectorDim = 2) (x : (⟨3, ![B, P, C]⟩ : Shape).Idx → EReal) (idx : IVec (⟨3, ![B', M, 2]⟩ : Shape) w)
    (upd : (⟨3, ![B', M, C]⟩ : Shape).Idx → EReal) (b : Fin B) (p : Fin P) (ch : Fin C) :
    Ideal.hostScatterAdd d x idx upd (ix3 b p ch)
      = x (ix3 b p ch)
        + ∑ b' : Fin B', ∑ m : Fin M,
            if (idx (ix3 b' m (0 : Fin 2))).toInt = (b.val : Int) ∧ (idx (ix3 b' m (1 : Fin 2))).toInt = (p.val : Int)
            then upd (ix3 b' m ch) else 0 := by
  unfold Ideal.hostScatterAdd
  congr 1
  rw [Finset.sum_filter, sum_idx3]
  refine Finset.sum_congr rfl fun b' _ => Finset.sum_congr rfl fun m _ => ?_
  by_cases hA : (idx (ix3 b' m (0 : Fin 2))).toInt = (b.val : Int) ∧ (idx (ix3 b' m (1 : Fin 2))).toInt = (p.val : Int)
  · rw [if_pos hA, Finset.sum_eq_single ch]
    · rw [if_pos ((resultIdx_pairs d huw hiw hsd hiv idx b' m ch b p ch).2 ⟨hA.1, hA.2, rfl⟩)]
    · intro c _ hc
      exact if_neg fun h => hc ((resultIdx_pairs d huw hiw hsd hiv idx b' m c b p ch).1 h).2.2
    · intro h
      exact absurd (Finset.mem_univ _) h
  · rw [if_neg hA]
    exact Finset.sum_eq_zero fun c _ =>
      if_neg fun h => hA ⟨((resultIdx_pairs d huw hiw hsd hiv idx b' m c b p ch).1 h).1,
        ((resultIdx_pairs d huw hiw hsd hiv idx b' m c b p ch).1 h).2.1⟩

end Pairs

end Idealize.ShloMosaic.ScatterSum

end
-- ==== Proof.RefValue.lean ====
/-
  THE REFERENCE'S RESULT IS THE SPECIFICATION. The reference flattens each coordinate pair to y · 128 + x in 32-bit
  words, wraps a negative flat index by adding 16384 (and a negative batch number by adding 32), scatters the entity
  rows with accumulation into a zero [32, 16384, 256] array at (batch, flat index), reshapes to [32, 128, 128, 256] and
  transposes to [32, 256, 128, 128]. Where every coordinate is in [0, 128) the flat index is in [0, 16384): no wrap
  applies, the batch number is the row's own, and the result at (b, n, y', x') is 0 plus the sum of x[b, m, n] over the
  entities m of batch b with y · 128 + x = y' · 128 + x'.
-/
import proofs.«416818_j52767968199015_3_alg».proof.Proof.Gen.ReferenceIdeal.Read
import proofs.«416818_j52767968199015_3_alg».proof.Proof.LibScatterPairs
import proofs.«416818_j52767968199015_3_alg».proof.Proof.Spec

noncomputable section

open scoped BigOperators

namespace Cert.ReferenceIdeal.RefValue

open Cert.ReferenceIdeal Cert.ReferenceIdeal.Gen Idealize.ShloMosaic Idealize.ShloMosaic.ValueIdx

open Cert.ReferenceIdeal.Read Idealize.ShloMosaic.ScatterSum

/-! ## The zero word -/

/-- The f32 word of all zero bits is the extended real 0. -/
theorem ofBits_zero : Ideal.ofBits .f32 0x00000000#32 = 0 := by simp [Ideal.ofBits, Ideal.ieee]

/-! ## Small words under the signed comparison and the select -/

/-- A 32-bit word below 2³¹ reads the same signed and unsigned. -/
theorem toInt_of_small (x : BitVec 32) (h : x.toNat < 2 ^ 31) : x.toInt = (x.toNat : Int) := by
  rw [BitVec.toInt_eq_toNat_cond, if_pos (by omega)]

/-- A 32-bit word below 2³¹ is not signed-less than zero: the comparison's bit is 0. -/
theorem cmpi_slt_zero_of_small (x : BitVec 32) (h : x.toNat < 2 ^ 31) : IntOp.cmpi .slt x 0#32 = 0#1 := by
  have hx := toInt_of_small x h
  have h0 : (0#32 : BitVec 32).toInt = 0 := by decide
  have hs : x.slt 0#32 = false := by
    unfold BitVec.slt
    exact decide_eq_false (by rw [hx, h0]; omega)
  show BitVec.ofBool (x.slt 0#32) = 0#1
  rw [hs]; rfl

/-- So the wrap "add the extent when negative" leaves such a word as it is. -/
theorem select_slt_zero_of_small (x y : BitVec 32) (h : x.toNat < 2 ^ 31) :
    Scalar.select (IntOp.cmpi .slt x 0#32) y x = x := by
  rw [cmpi_slt_zero_of_small x h, select_zero]

/-! ## The flat index word and the batch word -/

/-- The flattened index of entity (b', m), as the reference computes it: loc[b', m, 0] · 128 + loc[b', m, 1] in
    32-bit words. -/
theorem flat_word (loc : IVec S32x512x2 32) (b' : Fin 32) (m : Fin 512) :
    val_main_v6 (F := Ideal) loc (ix2 b' m) = Cert.Proof.Spec.cellWord loc b' m := by
  have hm : m.val < 512 := m.isLt
  have e0 : idx_main_v0 (idx_main_v1 (ix2 b' m)) = ix3 b' m (0 : Fin 2) := by
    funext a; refine Fin.ext ?_
    match a with
    | ⟨0, _⟩ => show (b'.val * 512 + m.val) / 512 = b'.val; omega
    | ⟨1, _⟩ => show (b'.val * 512 + m.val) / 1 % 512 = m.val; omega
    | ⟨2, _⟩ => rfl
  have e1 : idx_main_v4 (idx_main_v5 (ix2 b' m)) = ix3 b' m (1 : Fin 2) := by
    funext a; refine Fin.ext ?_
    match a with
    | ⟨0, _⟩ => show (b'.val * 512 + m.val) / 512 = b'.val; omega
    | ⟨1, _⟩ => show (b'.val * 512 + m.val) / 1 % 512 = m.val; omega
    | ⟨2, _⟩ => rfl
  rw [val_main_v6_apply, val_main_v3_apply, val_main_v1_apply, val_main_v0_apply, val_main_v2_apply, val_main_c_apply,
    val_main_v5_apply, val_main_v4_apply, e0, e1]
  rfl

/-- The batch number of row b', as the reference computes it: the word of b', the wrap of a negative number not
    applying. -/
theorem batch_word (b' : Fin 32) (m : Fin 512) :
    val_main_v21 (F := Ideal) (ix3 b' m (0 : Fin 1)) = BitVec.ofNat 32 b'.val := by
  have hb : b'.val < 32 := b'.isLt
  rw [val_main_v21_apply, val_main_v20_apply, val_main_v14_apply, val_main_v11_apply, val_main_v9_apply,
    val_main_v8_apply, val_main_v10_apply, val_main_c_0_apply]
  show Scalar.select (IntOp.cmpi .slt (BitVec.ofNat 32 b'.val) 0#32) _ (BitVec.ofNat 32 b'.val) = _
  exact select_slt_zero_of_small _ _ (by rw [BitVec.toNat_ofNat]; omega)

/-- The wrapped flat index of entity (b', m) is the flat index word: under the range precondition it is below
    16384, so not negative. -/
theorem wrapped_word (loc : IVec S32x512x2 32) (hr : ∀ i : S32x512x2.Idx, 0 ≤ (loc i).toInt ∧ (loc i).toInt < 128)
    (b' : Fin 32) (m : Fin 512) :
    val_main_v22 (F := Ideal) loc (ix3 b' m (0 : Fin 1)) = Cert.Proof.Spec.cellWord loc b' m := by
  have ej : idx_main_v22 (ix3 b' m (0 : Fin 1)) = ix2 b' m := by
    funext a
    match a with
    | ⟨0, _⟩ => rfl
    | ⟨1, _⟩ => rfl
  have hc := Cert.Proof.Spec.cellWord_toNat loc hr b' m
  have hl := Cert.Proof.Spec.cell_lt loc hr b' m
  rw [val_main_v22_apply, ej, val_main_v19_apply, val_main_v16_apply, val_main_v15_apply, val_main_c_2_apply, flat_word]
  exact select_slt_zero_of_small _ _ (by rw [hc]; omega)

/-! ## The scatter indices: a concatenation of the batch word and the wrapped flat index -/

/-- Component 0 of the index pair of entity (b', m) is the batch word. -/
theorem pair_fst (loc : IVec S32x512x2 32) (b' : Fin 32) (m : Fin 512) :
    val_main_v23 (F := Ideal) loc (ix3 b' m (0 : Fin 2)) = val_main_v21 (F := Ideal) (ix3 b' m (0 : Fin 1)) := by
  unfold val_main_v23
  exact concatenate_pair_apply_left 2 _ _ Facts₀.concatenates_S32x512x1_S32x512x1_S32x512x2_d2 (ix3 b' m (0 : Fin 2)) rfl
    (ix3 b' m (0 : Fin 1)) (fun c => match c with
      | ⟨0, _⟩ => rfl
      | ⟨1, _⟩ => rfl
      | ⟨2, _⟩ => rfl)

/-- Component 1 of the index pair of entity (b', m) is the wrapped flat index. -/
theorem pair_snd (loc : IVec S32x512x2 32) (b' : Fin 32) (m : Fin 512) :
    val_main_v23 (F := Ideal) loc (ix3 b' m (1 : Fin 2)) = val_main_v22 (F := Ideal) loc (ix3 b' m (0 : Fin 1)) := by
  unfold val_main_v23
  exact concatenate_pair_apply_right 2 _ _ Facts₀.concatenates_S32x512x1_S32x512x1_S32x512x2_d2 (ix3 b' m (1 : Fin 2)) rfl
    rfl (ix3 b' m (0 : Fin 1)) (fun c => match c with
      | ⟨0, _⟩ => fun _ => rfl
      | ⟨1, _⟩ => fun _ => rfl
      | ⟨2, _⟩ => fun h => absurd rfl h) rfl

/-- Read signed, component 0 is the row's own batch number. -/
theorem pair_fst_toInt (loc : IVec S32x512x2 32) (b' : Fin 32) (m : Fin 512) :
    (val_main_v23 (F := Ideal) loc (ix3 b' m (0 : Fin 2))).toInt = (b'.val : Int) := by
  have hb : b'.val < 32 := b'.isLt
  have hn : (BitVec.ofNat 32 b'.val).toNat = b'.val := by rw [BitVec.toNat_ofNat]; omega
  rw [pair_fst, batch_word, toInt_of_small _ (by rw [hn]; omega), hn]

/-- Read signed, component 1 is the entity's cell. -/
theorem pair_snd_toInt (loc : IVec S32x512x2 32) (hr : ∀ i : S32x512x2.Idx, 0 ≤ (loc i).toInt ∧ (loc i).toInt < 128)
    (b' : Fin 32) (m : Fin 512) :
    (val_main_v23 (F := Ideal) loc (ix3 b' m (1 : Fin 2))).toInt = (Cert.Proof.Spec.cell loc b' m : Int) := by
  have hc := Cert.Proof.Spec.cellWord_toNat loc hr b' m
  have hl := Cert.Proof.Spec.cell_lt loc hr b' m
  rw [pair_snd, wrapped_word loc hr, toInt_of_small _ (by rw [hc]; omega), hc]

/-! ## The scatter into the zero array, read at (b, y · 128 + x', n) -/

/-- The scattered array at (b, y · 128 + x', n): the sum over the entities m of batch b in that cell of x[b, m, n]. -/
theorem scatter_apply (x0 : S32x512x256.Idx → EReal) (loc : IVec S32x512x2 32)
    (hr : ∀ i : S32x512x2.Idx, 0 ≤ (loc i).toInt ∧ (loc i).toInt < 128) (b : Fin 32) (p : Fin 16384) (n : Fin 256) :
    val_main_v24 (F := Ideal) x0 loc (ix3 b p n)
      = ∑ m : Fin 512, if Cert.Proof.Spec.cell loc b m = p.val then x0 (ix3 b m n) else 0 := by
  unfold val_main_v24
  show Ideal.hostScatterAdd scatter_S32x16384x256_S32x512x2_S32x512x256_2_01_01_2 (val_main_v7 (F := Ideal))
    (val_main_v23 (F := Ideal) loc) x0 (ix3 b p n) = _
  rw [scatterAdd_pairs_apply _ rfl rfl rfl rfl, val_main_v7_apply, val_main_cst_apply]
  show Ideal.ofBits .f32 0x00000000#32 + _ = _
  rw [ofBits_zero, zero_add, Finset.sum_eq_single b]
  · refine Finset.sum_congr rfl fun m _ => ?_
    rw [pair_fst_toInt, pair_snd_toInt loc hr]
    by_cases hB : Cert.Proof.Spec.cell loc b m = p.val
    · rw [if_pos hB, if_pos ⟨rfl, by omega⟩]
    · rw [if_neg hB, if_neg fun h => hB (by have := h.2; omega)]
  · intro b' _ hb'
    refine Finset.sum_eq_zero fun m _ => if_neg fun h => hb' (Fin.ext ?_)
    have h1 := h.1
    rw [pair_fst_toInt] at h1
    omega
  · intro h
    exact absurd (Finset.mem_univ _) h

/-- The reference's last stage, at the ideal instance and under the range precondition, is the scattered map. -/
theorem result_eq (x0 : S32x512x256.Idx → EReal) (loc : IVec S32x512x2 32)
    (hr : ∀ i : S32x512x2.Idx, 0 ≤ (loc i).toInt ∧ (loc i).toInt < 128) :
    Cert.ReferenceIdeal.Read.val_main_v26 (F := Ideal) x0 loc = Cert.Proof.Spec.G x0 loc := by
  funext i
  obtain ⟨b, n, y, x', rfl⟩ : ∃ (b : Fin 32) (n : Fin 256) (y : Fin 128) (x' : Fin 128), i = ix4 b n y x' :=
    ⟨i 0, i 1, i 2, i 3, eq_ix4 i⟩
  have hn : n.val < 256 := n.isLt
  have hy : y.val < 128 := y.isLt
  have hx : x'.val < 128 := x'.isLt
  have hidx : idx_main_v25 (idx_main_v26 (ix4 b n y x')) = ix3 b (⟨y.val * 128 + x'.val, by omega⟩ : Fin 16384) n := by
    funext a; refine Fin.ext ?_
    match a with
    | ⟨0, _⟩ =>
      show (((b.val * 128 + y.val) * 128 + x'.val) * 256 + n.val) / 4194304 = b.val
      omega
    | ⟨1, _⟩ =>
      show (((b.val * 128 + y.val) * 128 + x'.val) * 256 + n.val) / 256 % 16384 = y.val * 128 + x'.val
      omega
    | ⟨2, _⟩ =>
      show (((b.val * 128 + y.val) * 128 + x'.val) * 256 + n.val) % 256 = n.val
      omega
  rw [val_main_v26_apply, val_main_v25_apply, hidx, scatter_apply x0 loc hr]
  rfl

end Cert.ReferenceIdeal.RefValue

end
-- ==== Proof.lean ====
/-
  THE CLAIM: a scatter of entities into a spatial map, as a one-hot matrix product on the kernel's side and as an
  accumulating scatter on the reference's.

  Inputs: x, f32[32, 512, 256] (per batch 512 entities of 256 channels) and location, i32[32, 512, 2] (per entity a
  coordinate pair (y, x) on a 128 × 128 map). Result, f32[32, 256, 128, 128]: at (b, n, y', x') the sum of x[b, m, n]
  over the entities m of batch b whose cell y · 128 + x is y' · 128 + x' (Spec.G).

  The kernel flattens each pair to y · 128 + x in 32-bit words on the host, and per (batch, half of the cells) grid
  point builds, chunk of 128 entities by chunk, the 0/1 matrix "entity k's flat word is cell word q", multiplies the
  chunk's rows by it and accumulates the four products in its output block; the blocks tile a [32, 256, 16384] array the
  host reshapes. The reference flattens the same way, wraps NEGATIVE flat indices by 16384, and scatters with
  accumulation into a [32, 16384, 256] zero array (updates landing outside are dropped), then reshapes and transposes.
  The two differ exactly where a flat index is negative: the reference wraps it into the map, the kernel matches no
  cell. Under the precondition that every coordinate is in [0, 128) — the map's own index range — the flat index is in
  [0, 16384) in both programs, no wrap applies, and both are Spec.G: the kernel's four chunk sums regroup to the one
  sum over the entities (addition of extended reals is commutative and associative; a product with a 0/1 factor is
  the term or zero), the reference's scatter read at an index is the sum of the updates whose index pair is that
  index. Finiteness of x is not needed by either step.

  The three frames: the kernel's two are the frame theorems over the printed body's run; the reference's is its run
  with the result dropped. The idealization rewrote nothing (preserves is trivial).
-/
import proofs.«416818_j52767968199015_3_alg».proof.Defs
import proofs.«416818_j52767968199015_3_alg».proof.Proof.Gen.Kernel
import proofs.«416818_j52767968199015_3_alg».proof.Proof.Gen.Kernel.Skeleton
import proofs.«416818_j52767968199015_3_alg».proof.Proof.Gen.Kernel.Launch
import proofs.«416818_j52767968199015_3_alg».proof.Proof.Gen.Kernel.Points
import proofs.«416818_j52767968199015_3_alg».proof.Proof.Gen.Kernel.Frame
import proofs.«416818_j52767968199015_3_alg».proof.Proof.Gen.KernelIdeal
import proofs.«416818_j52767968199015_3_alg».proof.Proof.Gen.KernelIdeal.Skeleton
import proofs.«416818_j52767968199015_3_alg».proof.Proof.Gen.KernelIdeal.Launch
import proofs.«416818_j52767968199015_3_alg».proof.Proof.Gen.KernelIdeal.Points
import proofs.«416818_j52767968199015_3_alg».proof.Proof.Gen.KernelIdeal.Frame
import proofs.«416818_j52767968199015_3_alg».proof.Proof.Gen.ReferenceIdeal
import proofs.«416818_j52767968199015_3_alg».proof.Proof.Gen.Pre_finite_inputs
import proofs.«416818_j52767968199015_3_alg».proof.Proof.Gen.ReferenceIdeal.Run
import proofs.«416818_j52767968199015_3_alg».proof.Proof.Gen.ReferenceIdeal.Read
import proofs.«416818_j52767968199015_3_alg».proof.Proof.PreRange
import proofs.«416818_j52767968199015_3_alg».proof.Proof.KernelValue
import proofs.«416818_j52767968199015_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments and under the range precondition, both programs end
    with the scattered map of the arguments. -/
theorem algebraic : Cert.algebraic_KernelIdeal_ReferenceIdeal := by
  intro m ρ m' ρ' hpre hagree
  have hr : ∀ (c : Dev Cert.KernelIdeal.nD) (i : Cert.KernelIdeal.S32x512x2.Idx),
      0 ≤ (Cert.KernelIdeal.KValue.larr m c i).toInt ∧ (Cert.KernelIdeal.KValue.larr m c i).toInt < 128 :=
    fun c => Cert.Proof.PreRange.range_of_pre _ _ (hpre c)
  refine ⟨fun c => Cert.Proof.Spec.G (Cert.KernelIdeal.KValue.xarr m c) (Cert.KernelIdeal.KValue.larr m c),
    Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  exact Cert.ReferenceIdeal.RefValue.result_eq _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
